-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S2x200000 : Shape := ⟨2, ![2, 200000]⟩
abbrev S128x128 : Shape := ⟨2, ![128, 128]⟩
abbrev S128 : Shape := ⟨1, ![128]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64x1 .f32) (main_arg10 : FVec F S1 .f32) (main_v33 : IVec S_ 1) : IVec S_ 1 :=
  let main_v34 : FVec F S64x1 .f32 := Host.absf main_arg9
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128 .f32) (main_arg7 : FVec F S256x64 .f32) (main_arg8 : FVec F S64 .f32) (main_arg9 : FVec F S64x1 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x64 .f32 := Host.absf main_arg7
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S2x200000 32) (main_arg3 : FVec F S128x128 .f32) (main_arg4 : FVec F S128 .f32) (main_arg5 : FVec F S128x128 .f32) (main_arg6 : FVec F S128 .f32) (main_arg7 : FVec F S256x64 .f32) (main_arg8 : FVec F S64 .f32) (main_arg9 : FVec F S64x1 .f32) (main_arg10 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S2x200000 : Shape := ⟨2, ![2, 200000]⟩
abbrev S128x128 : Shape := ⟨2, ![128, 128]⟩
abbrev S128 : Shape := ⟨1, ![128]⟩
abbrev S256x64 : Shape := ⟨2, ![256, 64]⟩
abbrev S64 : Shape := ⟨1, ![64]⟩
abbrev S64x1 : Shape := ⟨2, ![64, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩
abbrev S1x128 : Shape := ⟨2, ![1, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S128x64 : Shape := ⟨2, ![128, 64]⟩
abbrev S1x64 : Shape := ⟨2, ![1, 64]⟩
abbrev S1x1 : Shape := ⟨2, ![1, 1]⟩
abbrev S4000x128 : Shape := ⟨2, ![4000, 128]⟩
abbrev S4000x1 : Shape := ⟨2, ![4000, 1]⟩
abbrev S4000x64 : Shape := ⟨2, ![4000, 64]⟩

abbrev nBuf : Space → Nat
  | .hbm => 128
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S2x200000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S50000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S1x800000, .i32⟩
  | .hbm, ⟨16, _⟩ => ⟨S800000, .i32⟩
  | .hbm, ⟨17, _⟩ => ⟨S850000, .i32⟩
  | .hbm, ⟨18, _⟩ => ⟨S_, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x128, .bf16⟩
  | .hbm, ⟨52, _⟩ => ⟨S128x128, .bf16⟩
  | .hbm, ⟨53, _⟩ => ⟨S50000x128, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x128, .f32⟩
  | .hbm, ⟨63, _⟩ => ⟨S850000x1, .f32⟩
  | .hbm, ⟨64, _⟩ => ⟨S850000x128, .f32⟩
  | .hbm, ⟨65, _⟩ => ⟨S850000x128, .f32⟩
  | .hbm, ⟨66, _⟩ => ⟨S_, .f32⟩
  | .hbm, ⟨67, _⟩ => ⟨S50000x128, .f32⟩
  | .hbm, ⟨68, _⟩ => ⟨S850000x1, .i32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | .hbm, ⟨76, _⟩ => ⟨S50000x128, .bf16⟩
  | .hbm, ⟨77, _⟩ => ⟨S128x128, .bf16⟩
  | .hbm, ⟨78, _⟩ => ⟨S50000x128, .f32⟩
  | .hbm, ⟨79, _⟩ => ⟨S_, .i32⟩
  | .hbm, ⟨80, _⟩ => ⟨S850000, .i32⟩
  | .hbm, ⟨81, _⟩ => ⟨S850000, .i1⟩
  | .hbm, ⟨82, _⟩ => ⟨S_, .i32⟩
  | .hbm, ⟨83, _⟩ => ⟨S850000, .i32⟩
  | .hbm, ⟨84, _⟩ => ⟨S850000, .i32⟩
  | .hbm, ⟨85, _⟩ => ⟨S850000, .i32⟩
  | .hbm, ⟨86, _⟩ => ⟨S850000x1, .i32⟩
  | .hbm, ⟨87, _⟩ => ⟨S850000x128, .f32⟩
  | .hbm, ⟨88, _⟩ => ⟨S850000x1, .f32⟩
  | .hbm, ⟨89, _⟩ => ⟨S850000x128, .f32⟩
  | .hbm, ⟨90, _⟩ => ⟨S850000x128, .f32⟩
  | .hbm, ⟨91, _⟩ => ⟨S_, .f32⟩
  | .hbm, ⟨92, _⟩ => ⟨S50000x128, .f32⟩
  | .hbm, ⟨93, _⟩ => ⟨S850000x1, .i32⟩
  | .hbm, ⟨94, _⟩ => ⟨S50000x128, .f32⟩
  | .hbm, ⟨95, _⟩ => ⟨S1x128, .f32⟩
  | .hbm, ⟨96, _⟩ => ⟨S50000x128, .f32⟩
  | .hbm, ⟨97, _⟩ => ⟨S50000x128, .f32⟩
  | .hbm, ⟨98, _⟩ => ⟨S50000x128, .bf16⟩
  | .hbm, ⟨99, _⟩ => ⟨S1x200000, .i32⟩
  | .hbm, ⟨100, _⟩ => ⟨S200000, .i32⟩
  | .hbm, ⟨101, _⟩ => ⟨S1x200000, .i32⟩
  | .hbm, ⟨102, _⟩ => ⟨S200000, .i32⟩
  | .hbm, ⟨103, _⟩ => ⟨S_, .i32⟩
  | .hbm, ⟨104, _⟩ => ⟨S200000, .i32⟩
  | .hbm, ⟨105, _⟩ => ⟨S200000, .i1⟩
  | .hbm, ⟨106, _⟩ => ⟨S_, .i32⟩
  | .hbm, ⟨107, _⟩ => ⟨S200000, .i32⟩
  | .hbm, ⟨108, _⟩ => ⟨S200000, .i32⟩
  | .hbm, ⟨109, _⟩ => ⟨S200000, .i32⟩
  | .hbm, ⟨110, _⟩ => ⟨S200000x1, .i32⟩
  | .hbm, ⟨111, _⟩ => ⟨S200000x128, .bf16⟩
  | .hbm, ⟨112, _⟩ => ⟨S_, .i32⟩
  | .hbm, ⟨113, _⟩ => ⟨S200000, .i32⟩
  | .hbm, ⟨114, _⟩ => ⟨S200000, .i1⟩
  | .hbm, ⟨115, _⟩ => ⟨S_, .i32⟩
  | .hbm, ⟨116, _⟩ => ⟨S200000, .i32⟩
  | .hbm, ⟨117, _⟩ => ⟨S200000, .i32⟩
  | .hbm, ⟨118, _⟩ => ⟨S200000, .i32⟩
  | .hbm, ⟨119, _⟩ => ⟨S200000x1, .i32⟩
  | .hbm, ⟨120, _⟩ => ⟨S200000x128, .bf16⟩
  | .hbm, ⟨121, _⟩ => ⟨S256x64, .bf16⟩
  | .hbm, ⟨122, _⟩ => ⟨S128x64, .bf16⟩
  | .hbm, ⟨123, _⟩ => ⟨S128x64, .bf16⟩
  | .hbm, ⟨124, _⟩ => ⟨S64x1, .bf16⟩
  | .hbm, ⟨125, _⟩ => ⟨S1x64, .f32⟩
  | .hbm, ⟨126, _⟩ => ⟨S1x1, .f32⟩
  | .hbm, ⟨127, _⟩ => ⟨S200000x1, .f32⟩
  | .local _ .vmem, ⟨0, _⟩ => ⟨S2000x128, .bf16⟩
  | .local _ .vmem, ⟨1, _⟩ => ⟨S2000x128, .bf16⟩
  | .local _ .vmem, ⟨2, _⟩ => ⟨S128x128, .bf16⟩
  | .local _ .vmem, ⟨3, _⟩ => ⟨S2000x128, .f32⟩
  | .local _ .vmem, ⟨4, _⟩ => ⟨S2000x128, .f32⟩
  | .local _ .vmem, ⟨5, _⟩ => ⟨S2000x128, .bf16⟩
  | .local _ .vmem, ⟨6, _⟩ => ⟨S2000x128, .bf16⟩
  | .local _ .vmem, ⟨7, _⟩ => ⟨S128x128, .bf16⟩
  | .local _ .vmem, ⟨8, _⟩ => ⟨S2000x128, .f32⟩
  | .local _ .vmem, ⟨9, _⟩ => ⟨S2000x128, .f32⟩
  | .local _ .vmem, ⟨10, _⟩ => ⟨S4000x128, .bf16⟩
  | .local _ .vmem, ⟨11, _⟩ => ⟨S4000x128, .bf16⟩
  | .local _ .vmem, ⟨12, _⟩ => ⟨S4000x128, .bf16⟩
  | .local _ .vmem, ⟨13, _⟩ => ⟨S4000x128, .bf16⟩
  | .local _ .vmem, ⟨14, _⟩ => ⟨S128x64, .bf16⟩
  | .local _ .vmem, ⟨15, _⟩ => ⟨S128x64, .bf16⟩
  | .local _ .vmem, ⟨16, _⟩ => ⟨S1x64, .f32⟩
  | .local _ .vmem, ⟨17, _⟩ => ⟨S64x1, .bf16⟩
  | .local _ .vmem, ⟨18, _⟩ => ⟨S1x1, .f32⟩
  | .local _ .vmem, ⟨19, _⟩ => ⟨S4000x1, .f32⟩
  | .local _ .vmem, ⟨20, _⟩ => ⟨S4000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_10 : Ref sig .tc := ⟨.hbm, 79, rfl⟩
abbrev main_v54 : Ref sig .tc := ⟨.hbm, 80, rfl⟩
abbrev main_v55 : Ref sig .tc := ⟨.hbm, 81, rfl⟩
abbrev main_c_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_12 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_13 : Ref sig .tc := ⟨.hbm, 103, rfl⟩
abbrev main_v75 : Ref sig .tc := ⟨.hbm, 104, rfl⟩
abbrev main_v76 : Ref sig .tc := ⟨.hbm, 105, rfl⟩
abbrev main_c_14 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_c_15 : Ref sig .tc := ⟨.hbm, 112, rfl⟩
abbrev main_v82 : Ref sig .tc := ⟨.hbm, 113, rfl⟩
abbrev main_v83 : Ref sig .tc := ⟨.hbm, 114, rfl⟩
abbrev main_c_16 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg7_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem7_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x1 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  slices_S256x64_S128x64_0_0 : S256x64.Slices ![0, 0] S128x64
  slices_S256x64_S128x64_128_0 : S256x64.Slices ![128, 0] S128x64
  shapeCasts_S64_S1x64 : S64.ShapeCasts S1x64
  shapeCasts_S1_S1x1 : S1.ShapeCasts S1x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S200000x1_S200000x128_1_0_n_n_0_1_1128_wf : GatherDims.WF S50000x128 S200000x1 S200000x128 [1] [0] [] [0] [] 1 ![1, 128]
  dot_S4000x128_S128x64_S4000x64_1_0_0_1_n_n_wf : DotDims.WF S4000x128 S128x64 S4000x64 [1] [0] [0] [1] [] []
  dot_S4000x64_S64x1_S4000x1_1_0_0_1_n_n_wf : DotDims.WF S4000x64 S64x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .bf16 = 32 ∨ (Rect.block (s := S50000x128) S2000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .bf16 = 32 ∨ (Rect.block (s := S50000x128) S2000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S200000x128.size a
  hwx2_0 : ∀ i : grid2.Coords, EltTy.bits .bf16 = 32 ∨ (Rect.block (s := S200000x128) S4000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S200000x128.size a
  hwx2_1 : ∀ i : grid2.Coords, EltTy.bits .bf16 = 32 ∨ (Rect.block (s := S200000x128) S4000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .bf16 = 32 ∨ (Rect.block (s := S128x64) S128x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .bf16 = 32 ∨ (Rect.block (s := S128x64) S128x64.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x1.size a ≤ S64x1.size a
  hwx2_5 : ∀ i : grid2.Coords, EltTy.bits .bf16 = 32 ∨ (Rect.block (s := S64x1) S64x1.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x1.size a ≤ S200000x1.size a
  hwx2_7 : ∀ i : grid2.Coords, EltTy.bits .f32 = 32 ∨ (Rect.block (s := S200000x1) S4000x1.size (cc2_transform_7 i) (hinb2_7 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf

abbrev win0_0 : Pipeline.Window sig grid0 :=
  Pipeline.Window.ofSpec (Memref.whole main_v30) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v81) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v88) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v90) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v91) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v93) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v92) S64x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v94) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v95) S4000x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S2x200000 : Shape := ⟨2, ![2, 200000]⟩
abbrev S128x128 : Shape := ⟨2, ![128, 128]⟩
abbrev S128 : Shape := ⟨1, ![128]⟩
abbrev S256x64 : Shape := ⟨2, ![256, 64]⟩
abbrev S64 : Shape := ⟨1, ![64]⟩
abbrev S64x1 : Shape := ⟨2, ![64, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S200000x256 : Shape := ⟨2, ![200000, 256]⟩
abbrev S200000x64 : Shape := ⟨2, ![200000, 64]⟩
abbrev S1x64 : Shape := ⟨2, ![1, 64]⟩
abbrev S1x1 : Shape := ⟨2, ![1, 1]⟩

abbrev nBuf : Space → Nat
  | .hbm => 176
  | .vmem => 0
  | .smem => 0
  | _ => 0

abbrev hbmTy0_0 (i : Nat) : BufTy := match i % 128 with
  | 0 => ⟨S50000x128, .f32⟩
  | 1 => ⟨S2x800000, .i32⟩
  | 2 => ⟨S2x200000, .i32⟩
  | 3 => ⟨S128x128, .f32⟩
  | 4 => ⟨S128, .f32⟩
  | 5 => ⟨S128x128, .f32⟩
  | 6 => ⟨S128, .f32⟩
  | 7 => ⟨S256x64, .f32⟩
  | 8 => ⟨S64, .f32⟩
  | 9 => ⟨S64x1, .f32⟩
  | 10 => ⟨S1, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S50000x128, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x128, .f32⟩
  | 61 => ⟨S850000x1, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000, .i32⟩
  | 75 => ⟨S1x800000, .i32⟩
  | 76 => ⟨S800000, .i32⟩
  | 77 => ⟨S850000, .i32⟩
  | 78 => ⟨S1x800000, .i32⟩
  | 79 => ⟨S800000, .i32⟩
  | 80 => ⟨S850000, .i32⟩
  | 81 => ⟨S_, .f32⟩
  | 82 => ⟨S850000, .f32⟩
  | 83 => ⟨S_, .f32⟩
  | 84 => ⟨S50000, .f32⟩
  | 85 => ⟨S850000x1, .i32⟩
  | 86 => ⟨S50000, .f32⟩
  | 87 => ⟨S_, .f32⟩
  | 88 => ⟨S50000, .f32⟩
  | 89 => ⟨S50000, .i1⟩
  | 90 => ⟨S50000, .f32⟩
  | 91 => ⟨S_, .f32⟩
  | 92 => ⟨S_, .f32⟩
  | 93 => ⟨S50000, .f32⟩
  | 94 => ⟨S50000, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000, .f32⟩
  | 113 => ⟨S850000, .f32⟩
  | 114 => ⟨S50000x128, .f32⟩
  | 115 => ⟨S_, .i32⟩
  | 116 => ⟨S850000, .i32⟩
  | 117 => ⟨S850000, .i1⟩
  | 118 => ⟨S_, .i32⟩
  | 119 => ⟨S850000, .i32⟩
  | 120 => ⟨S850000, .i32⟩
  | 121 => ⟨S850000, .i32⟩
  | 122 => ⟨S850000x1, .i32⟩
  | 123 => ⟨S850000x128, .f32⟩
  | 124 => ⟨S850000x1, .f32⟩
  | 125 => ⟨S850000x128, .f32⟩
  | 126 => ⟨S850000x128, .f32⟩
  | 127 => ⟨S_, .f32⟩
  | _ => ⟨S50000x128, .f32⟩

abbrev hbmTy0_1 (i : Nat) : BufTy := match i % 128 with
  | 0 => ⟨S50000x128, .f32⟩
  | 1 => ⟨S850000x1, .i32⟩
  | 2 => ⟨S50000x128, .f32⟩
  | 3 => ⟨S1x128, .f32⟩
  | 4 => ⟨S50000x128, .f32⟩
  | 5 => ⟨S50000x128, .f32⟩
  | 6 => ⟨S1x200000, .i32⟩
  | 7 => ⟨S200000, .i32⟩
  | 8 => ⟨S1x200000, .i32⟩
  | 9 => ⟨S200000, .i32⟩
  | 10 => ⟨S_, .i32⟩
  | 11 => ⟨S200000, .i32⟩
  | 12 => ⟨S200000, .i1⟩
  | 13 => ⟨S_, .i32⟩
  | 14 => ⟨S200000, .i32⟩
  | 15 => ⟨S200000, .i32⟩
  | 16 => ⟨S200000, .i32⟩
  | 17 => ⟨S200000x1, .i32⟩
  | 18 => ⟨S200000x128, .f32⟩
  | 19 => ⟨S_, .i32⟩
  | 20 => ⟨S200000, .i32⟩
  | 21 => ⟨S200000, .i1⟩
  | 22 => ⟨S_, .i32⟩
  | 23 => ⟨S200000, .i32⟩
  | 24 => ⟨S200000, .i32⟩
  | 25 => ⟨S200000, .i32⟩
  | 26 => ⟨S200000x1, .i32⟩
  | 27 => ⟨S200000x128, .f32⟩
  | 28 => ⟨S200000x256, .f32⟩
  | 29 => ⟨S200000x64, .f32⟩
  | 30 => ⟨S1x64, .f32⟩
  | 31 => ⟨S200000x64, .f32⟩
  | 32 => ⟨S200000x64, .f32⟩
  | 33 => ⟨S_, .f32⟩
  | 34 => ⟨S200000x64, .f32⟩
  | 35 => ⟨S200000x64, .f32⟩
  | 36 => ⟨S200000x1, .f32⟩
  | 37 => ⟨S1x1, .f32⟩
  | 38 => ⟨S200000x1, .f32⟩
  | 39 => ⟨S200000x1, .f32⟩
  | 40 => ⟨S200000x1, .f32⟩
  | 41 => ⟨S200000x1, .f32⟩
  | 42 => ⟨S_, .f32⟩
  | 43 => ⟨S200000x1, .f32⟩
  | 44 => ⟨S200000x1, .f32⟩
  | 45 => ⟨S_, .f32⟩
  | 46 => ⟨S200000x1, .f32⟩
  | 47 => ⟨S200000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_9 : Ref sig .tc := ⟨.hbm, 81, rfl⟩
abbrev main_v55 : Ref sig .tc := ⟨.hbm, 82, rfl⟩
abbrev main_cst_10 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_12 : Ref sig .tc := ⟨.hbm, 91, rfl⟩
abbrev main_call2_v0 : Ref sig .tc := ⟨.hbm, 92, rfl⟩
abbrev main_call2_v1 : Ref sig .tc := ⟨.hbm, 93, rfl⟩
abbrev main_v62 : Ref sig .tc := ⟨.hbm, 94, rfl⟩
abbrev main_c_13 : Ref sig .tc := ⟨.hbm, 95, rfl⟩
abbrev main_v63 : Ref sig .tc := ⟨.hbm, 96, rfl⟩
abbrev main_v64 : Ref sig .tc := ⟨.hbm, 97, rfl⟩
abbrev main_c_14 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_c_15 : Ref sig .tc := ⟨.hbm, 104, rfl⟩
abbrev main_v70 : Ref sig .tc := ⟨.hbm, 105, rfl⟩
abbrev main_v71 : Ref sig .tc := ⟨.hbm, 106, rfl⟩
abbrev main_c_16 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_c_17 : Ref sig .tc := ⟨.hbm, 115, rfl⟩
abbrev main_v79 : Ref sig .tc := ⟨.hbm, 116, rfl⟩
abbrev main_v80 : Ref sig .tc := ⟨.hbm, 117, rfl⟩
abbrev main_c_18 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_19 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_c_20 : Ref sig .tc := ⟨.hbm, 138, rfl⟩
abbrev main_v99 : Ref sig .tc := ⟨.hbm, 139, rfl⟩
abbrev main_v100 : Ref sig .tc := ⟨.hbm, 140, rfl⟩
abbrev main_c_21 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_c_22 : Ref sig .tc := ⟨.hbm, 147, rfl⟩
abbrev main_v106 : Ref sig .tc := ⟨.hbm, 148, rfl⟩
abbrev main_v107 : Ref sig .tc := ⟨.hbm, 149, rfl⟩
abbrev main_c_23 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_call3_cst : Ref sig .tc := ⟨.hbm, 161, rfl⟩
abbrev main_call3_v0 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_cst_24 : Ref sig .tc := ⟨.hbm, 170, rfl⟩
abbrev main_v125 : Ref sig .tc := ⟨.hbm, 171, rfl⟩
abbrev main_v126 : Ref sig .tc := ⟨.hbm, 172, rfl⟩
abbrev main_cst_25 : Ref sig .tc := ⟨.hbm, 173, rfl⟩
abbrev main_v127 : Ref sig .tc := ⟨.hbm, 174, rfl⟩
abbrev main_v128 : Ref sig .tc := ⟨.hbm, 175, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x256_d1 : Shape.Concatenates [S200000x128, S200000x128] S200000x256 1
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  bcast_S_S200000x1 : S_.BroadcastsInDim S200000x1 (![] : Fin 0 → Fin S200000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S200000x1_S200000x128_1_0_n_n_0_1_1128_wf : GatherDims.WF S50000x128 S200000x1 S200000x128 [1] [0] [] [0] [] 1 ![1, 128]
  dot_S200000x256_S256x64_S200000x64_1_0_0_1_n_n_wf : DotDims.WF S200000x256 S256x64 S200000x64 [1] [0] [0] [1] [] []
  dot_S200000x64_S64x1_S200000x1_1_0_0_1_n_n_wf : DotDims.WF S200000x64 S64x1 S200000x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S200000x256_S256x64_S200000x64_1_0_0_1_n_n : DotDims S200000x256 S256x64 S200000x64 where
  lhsContracting := [1]
  rhsContracting := [0]
  lhsNonContracting := [0]
  rhsNonContracting := [1]
  lhsBatch := []
  rhsBatch := []
  wf := dot_S200000x256_S256x64_S200000x64_1_0_0_1_n_n_wf
def dot_S200000x64_S64x1_S200000x1_1_0_0_1_n_n : DotDims S200000x64 S64x1 S200000x1 where
  lhsContracting := [1]
  rhsContracting := [0]
  lhsNonContracting := [0]
  rhsNonContracting := [1]
  lhsBatch := []
  rhsBatch := []
  wf := dot_S200000x64_S64x1_S200000x1_1_0_0_1_n_n_wf

class Facts : Prop extends Facts₀ where

variable [Facts]
-- ==== Proof.Spec.lean ====
/-
  The two closed forms this certificate's programs meet in, index by index on the extended reals.

  `proj x w` is the product of a 50000 x 128 array with a 128 x 128 one: entry (r, c) is the sum over k of
  x(r, k) * w(k, c).

  `link hs hd wps wpd b1 wp2 b2` is the link scorer on two arrays of 200000 gathered rows: row p gets
  logistic ( sum_j max (sum_k hs(p,k) * wps(k,j) + sum_k hd(p,k) * wpd(k,j) + b1(0,j), 0) * wp2(j,0) + b2(0,0) ),
  the hidden layer's two products kept apart (the rows of the source node against the upper half of the first
  weight, the rows of the target node against its lower half).
-/
import Idealize.ShloMosaic.PureOps.Ideal
import Idealize.ShloMosaic.Lib.ValueIdx

noncomputable section

namespace Cert.Spec

open Idealize.ShloMosaic Idealize.ShloMosaic.ValueIdx

/-- Rows by columns: entry (r, c) of the product is the sum over k of x(r, k) * w(k, c). -/
def proj (x : (⟨2, ![50000, 128]⟩ : Shape).Idx → EReal) (w : (⟨2, ![128, 128]⟩ : Shape).Idx → EReal) :
    (⟨2, ![50000, 128]⟩ : Shape).Idx → EReal :=
  fun i => ∑ k : Fin 128, x (ix2 (i 0) k) * w (ix2 k (i 1))

/-- The hidden layer of the link scorer before its bias: the source rows against `wps` plus the target rows
    against `wpd`, at row p and hidden unit j. -/
def hidden (hs hd : (⟨2, ![200000, 128]⟩ : Shape).Idx → EReal) (wps wpd : (⟨2, ![128, 64]⟩ : Shape).Idx → EReal)
    (p : Fin 200000) (j : Fin 64) : EReal :=
  (∑ k : Fin 128, hs (ix2 p k) * wps (ix2 k j)) + (∑ k : Fin 128, hd (ix2 p k) * wpd (ix2 k j))

/-- The link scorer: the logistic function of the second layer over the rectified hidden layer. The zero of the
    rectifier is kept as the float word both programs print. -/
def link (hs hd : (⟨2, ![200000, 128]⟩ : Shape).Idx → EReal) (wps wpd : (⟨2, ![128, 64]⟩ : Shape).Idx → EReal)
    (b1 : (⟨2, ![1, 64]⟩ : Shape).Idx → EReal) (wp2 : (⟨2, ![64, 1]⟩ : Shape).Idx → EReal)
    (b2 : (⟨2, ![1, 1]⟩ : Shape).Idx → EReal) : (⟨2, ![200000, 1]⟩ : Shape).Idx → EReal :=
  fun i => Ideal.logistic
    ((∑ j : Fin 64, max (hidden hs hd wps wpd (i 0) j + b1 (ix2 0 j)) (Ideal.ofBits .f32 0x00000000#32) * wp2 (ix2 j 0))
      + b2 (ix2 0 0))

end Cert.Spec

end
-- ==== Proof.RLink.lean ====
/-
  The reference read at an index, where the kernel computes differently: its matrix products as sums, and its link
  scorer — one product of the concatenated gathered rows with the whole first weight — as the closed form in which
  the sum over the 256 concatenated columns is split into the source rows against the weight's upper half and the
  target rows against its lower half.
-/
import proofs.«426822_j82772609728846_3_alg».proof.Proof.ReadP
import proofs.«426822_j82772609728846_3_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.ReferenceIdeal.RefVal

open Idealize.ShloMosaic Idealize.ShloMosaic.TcCoe Idealize.SL.Sem Idealize.ShloMosaic.ValueIdx
open Cert.ReferenceIdeal Cert.ReferenceIdeal.ReadP

/-- The reference's 50000 x 128 by 128 x 128 product is the sum over the contracted index. -/
theorem ref_dot (x : FVec Ideal S50000x128 .f32) (w : FVec Ideal S128x128 .f32) :
    Host.dotGeneral (F := Ideal) dot_S50000x128_S128x128_S50000x128_1_0_0_1_n_n none x w = Cert.Spec.proj x w := by
  funext i
  obtain ⟨r, c, rfl⟩ : ∃ (r : Fin 50000) (c : Fin 128), i = ix2 r c := ⟨i 0, i 1, eq_ix2 i⟩
  -- the product at (r, c) is the sum over k of the left operand at (r, k) times the right at (k, c)
  have h := val_main_v30_apply x w (ix2 r c)
  unfold val_main_v30 at h
  rw [h]
  show _ = ∑ k : Fin 128, x (ix2 r k) * w (ix2 k c)
  refine Finset.sum_congr rfl fun k _ => ?_
  have el : lidx_main_v30 (ix2 r c) k = ix2 r k := funext fun a => by
    match a with
    | ⟨0, _⟩ => rfl
    | ⟨1, _⟩ => rfl
  have er : ridx_main_v30 (ix2 r c) k = ix2 k c := funext fun a => by
    match a with
    | ⟨0, _⟩ => rfl
    | ⟨1, _⟩ => rfl
  rw [el, er]

/-! ## The two gathered arrays side by side -/

/-- A column below 128 of two 128-column arrays laid side by side is the first array's column. -/
theorem concat_left (a b : FVec Ideal S200000x128 .f32) (h : Shape.Concatenates [S200000x128, S200000x128] S200000x256 1)
    (p : Fin 200000) (k : Fin 128) :
    concatenate S200000x256 1 [⟨S200000x128, a⟩, ⟨S200000x128, b⟩] h (ix2 p (⟨k.val, by omega⟩ : Fin 256)) = a (ix2 p k) := by
  refine concatenate_pair_apply_left (t := S200000x256) 1 a b h _ rfl (ix2 p k) (fun c => ?_)
  match c with
  | ⟨0, _⟩ => rfl
  | ⟨1, _⟩ => rfl

/-- A column from 128 on of two 128-column arrays laid side by side is the second array's column, 128 less. -/
theorem concat_right (a b : FVec Ideal S200000x128 .f32) (h : Shape.Concatenates [S200000x128, S200000x128] S200000x256 1)
    (p : Fin 200000) (k : Fin 128) :
    concatenate S200000x256 1 [⟨S200000x128, a⟩, ⟨S200000x128, b⟩] h (ix2 p (⟨128 + k.val, by omega⟩ : Fin 256)) = b (ix2 p k) := by
  refine concatenate_pair_apply_right (t := S200000x256) 1 a b h _ rfl rfl (ix2 p k) (fun c hc => ?_) ?_
  · match c with
    | ⟨0, _⟩ => rfl
    | ⟨1, _⟩ => exact absurd rfl hc
  · show k.val + 128 = 128 + k.val
    omega

/-- A sum over 256 columns is the sum over the first 128 plus the sum over the last 128. -/
theorem sum_256_split (f : Fin 256 → EReal) :
    ∑ k : Fin 256, f k = (∑ k : Fin 128, f ⟨k.val, by omega⟩) + ∑ k : Fin 128, f ⟨128 + k.val, by omega⟩ :=
  Fin.sum_univ_add (a := 128) (b := 128) f

/-! ## The hidden layer -/

/-- The product of the concatenated rows with the whole first weight, at row p and hidden unit j: the 256 terms split
    into the source row against the weight's rows 0..127 and the target row against its rows 128..255. -/
theorem hidden_apply (x0 : FVec Ideal S50000x128 .f32) (x1 : IVec S2x800000 32) (x2 : IVec S2x200000 32)
    (x3 : FVec Ideal S128x128 .f32) (x4 : FVec Ideal S128 .f32) (x5 : FVec Ideal S128x128 .f32) (x6 : FVec Ideal S128 .f32)
    (x7 : FVec Ideal S256x64 .f32)
    (wps wpd : (⟨2, ![128, 64]⟩ : Shape).Idx → EReal)
    (hwps : ∀ (k : Fin 128) (j : Fin 64), wps (ix2 k j) = x7 (ix2 ⟨k.val, by omega⟩ j))
    (hwpd : ∀ (k : Fin 128) (j : Fin 64), wpd (ix2 k j) = x7 (ix2 ⟨128 + k.val, by omega⟩ j))
    (p : Fin 200000) (j : Fin 64) :
    val_main_v114 (F := Ideal) x0 x1 x2 x3 x4 x5 x6 x7 (ix2 p j)
      = Cert.Spec.hidden (val_main_v105 (F := Ideal) x0 x1 x2 x3 x4 x5 x6) (val_main_v112 (F := Ideal) x0 x1 x2 x3 x4 x5 x6)
          wps wpd p j := by
  rw [val_main_v114_apply]
  unfold val_main_v113 Cert.Spec.hidden
  generalize val_main_v105 (F := Ideal) x0 x1 x2 x3 x4 x5 x6 = hs
  generalize val_main_v112 (F := Ideal) x0 x1 x2 x3 x4 x5 x6 = hd
  rw [sum_256_split]
  congr 1
  · refine Finset.sum_congr rfl fun k _ => ?_
    have el : lidx_main_v114 (ix2 p j) (⟨k.val, by omega⟩ : Fin 256) = ix2 p (⟨k.val, by omega⟩ : Fin 256) :=
      funext fun a => by
        match a with
        | ⟨0, _⟩ => rfl
        | ⟨1, _⟩ => rfl
    have er : ridx_main_v114 (ix2 p j) (⟨k.val, by omega⟩ : Fin 256) = ix2 (⟨k.val, by omega⟩ : Fin 256) j :=
      funext fun a => by
        match a with
        | ⟨0, _⟩ => rfl
        | ⟨1, _⟩ => rfl
    rw [el, er, concat_left, hwps]
  · refine Finset.sum_congr rfl fun k _ => ?_
    have el : lidx_main_v114 (ix2 p j) (⟨128 + k.val, by omega⟩ : Fin 256) = ix2 p (⟨128 + k.val, by omega⟩ : Fin 256) :=
      funext fun a => by
        match a with
        | ⟨0, _⟩ => rfl
        | ⟨1, _⟩ => rfl
    have er : ridx_main_v114 (ix2 p j) (⟨128 + k.val, by omega⟩ : Fin 256) = ix2 (⟨128 + k.val, by omega⟩ : Fin 256) j :=
      funext fun a => by
        match a with
        | ⟨0, _⟩ => rfl
        | ⟨1, _⟩ => rfl
    rw [el, er, concat_right, hwpd]

/-- The rectified hidden layer at row p and hidden unit j: the product plus the bias, against the zero word. -/
theorem relu_apply (x0 : FVec Ideal S50000x128 .f32) (x1 : IVec S2x800000 32) (x2 : IVec S2x200000 32)
    (x3 : FVec Ideal S128x128 .f32) (x4 : FVec Ideal S128 .f32) (x5 : FVec Ideal S128x128 .f32) (x6 : FVec Ideal S128 .f32)
    (x7 : FVec Ideal S256x64 .f32) (x8 : FVec Ideal S64 .f32) (p : Fin 200000) (j : Fin 64) :
    val_main_v118 (F := Ideal) x0 x1 x2 x3 x4 x5 x6 x7 x8 (ix2 p j)
      = max (val_main_v114 (F := Ideal) x0 x1 x2 x3 x4 x5 x6 x7 (ix2 p j) + x8 (ix1 j)) (Ideal.ofBits .f32 0x00000000#32) := by
  rw [val_main_v118_apply, val_main_call3_v0_apply, val_main_call3_cst_apply, val_main_v117_apply, val_main_v116_apply,
    val_main_v115_apply]
  have e : idx_main_v115 (idx_main_v116 (ix2 p j)) = ix1 j := funext fun a => by
    match a with
    | ⟨0, _⟩ => rfl
  rw [e]
  generalize val_main_v114 (F := Ideal) x0 x1 x2 x3 x4 x5 x6 x7 (ix2 p j) = y
  rfl

/-! ## The second layer and the logistic function -/

/-- The second layer at row p: the sum over the 64 hidden units of the rectified hidden layer times the second
    weight, plus the second bias. -/
theorem logit_apply (x0 : FVec Ideal S50000x128 .f32) (x1 : IVec S2x800000 32) (x2 : IVec S2x200000 32)
    (x3 : FVec Ideal S128x128 .f32) (x4 : FVec Ideal S128 .f32) (x5 : FVec Ideal S128x128 .f32) (x6 : FVec Ideal S128 .f32)
    (x7 : FVec Ideal S256x64 .f32) (x8 : FVec Ideal S64 .f32) (x9 : FVec Ideal S64x1 .f32) (x10 : FVec Ideal S1 .f32)
    (p : Fin 200000) :
    val_main_v122 (F := Ideal) x0 x1 x2 x3 x4 x5 x6 x7 x8 x9 x10 (ix2 p (0 : Fin 1))
      = (∑ j : Fin 64, val_main_v118 (F := Ideal) x0 x1 x2 x3 x4 x5 x6 x7 x8 (ix2 p j) * x9 (ix2 j (0 : Fin 1)))
          + x10 (ix1 (0 : Fin 1)) := by
  rw [val_main_v122_apply, val_main_v121_apply, val_main_v120_apply, val_main_v119_apply]
  have e : idx_main_v120 (idx_main_v121 (ix2 p (0 : Fin 1))) = ix1 (0 : Fin 1) := funext fun a => by
    match a with
    | ⟨0, _⟩ => rfl
  rw [e]
  have es : ∀ k : Fin 64,
      val_main_v118 (F := Ideal) x0 x1 x2 x3 x4 x5 x6 x7 x8 (lidx_main_v119 (ix2 p (0 : Fin 1)) k)
          * x9 (ridx_main_v119 (ix2 p (0 : Fin 1)) k)
        = val_main_v118 (F := Ideal) x0 x1 x2 x3 x4 x5 x6 x7 x8 (ix2 p k) * x9 (ix2 k (0 : Fin 1)) := fun k => by
    have el : lidx_main_v119 (ix2 p (0 : Fin 1)) k = ix2 p k := funext fun a => by
      match a with
      | ⟨0, _⟩ => rfl
      | ⟨1, _⟩ => rfl
    have er : ridx_main_v119 (ix2 p (0 : Fin 1)) k = ix2 k (0 : Fin 1) := funext fun a => by
      match a with
      | ⟨0, _⟩ => rfl
      | ⟨1, _⟩ => rfl
    rw [el, er]
  rw [Finset.sum_congr rfl fun k _ => es k]
  rfl

/-- The scorer at row p is the logistic function of the second layer: one over one plus the exponential of the
    negated second layer, the float word 0x3F800000 being the real one. -/
theorem score_apply (x0 : FVec Ideal S50000x128 .f32) (x1 : IVec S2x800000 32) (x2 : IVec S2x200000 32)
    (x3 : FVec Ideal S128x128 .f32) (x4 : FVec Ideal S128 .f32) (x5 : FVec Ideal S128x128 .f32) (x6 : FVec Ideal S128 .f32)
    (x7 : FVec Ideal S256x64 .f32) (x8 : FVec Ideal S64 .f32) (x9 : FVec Ideal S64x1 .f32) (x10 : FVec Ideal S1 .f32)
    (i : S200000x1.Idx) :
    val_main_v128 (F := Ideal) x0 x1 x2 x3 x4 x5 x6 x7 x8 x9 x10 i
      = Ideal.logistic (val_main_v122 (F := Ideal) x0 x1 x2 x3 x4 x5 x6 x7 x8 x9 x10 i) := by
  rw [val_main_v128_apply, val_main_v127_apply, val_main_cst_25_apply, val_main_v126_apply, val_main_v125_apply,
    val_main_cst_24_apply, val_main_v124_apply, val_main_v123_apply]
  generalize val_main_v122 (F := Ideal) x0 x1 x2 x3 x4 x5 x6 x7 x8 x9 x10 i = y
  rw [Ideal.hostDivf_def, Ideal.addf_def, Ideal.hostUnary_exp_def, Ideal.hostNegf_def, Ideal.negf_def, Ideal.ofBits_def,
    Ideal.ofBits_one_f32, Ideal.logistic]

/-- The reference's scorer is the closed form, of its own two gathered arrays, of any `wps` / `wpd` that are the
    upper / lower 128 rows of the first weight, of any `b1` / `b2` that are the two biases as one-row arrays. -/
theorem ref_link (x0 : FVec Ideal S50000x128 .f32) (x1 : IVec S2x800000 32) (x2 : IVec S2x200000 32)
    (x3 : FVec Ideal S128x128 .f32) (x4 : FVec Ideal S128 .f32) (x5 : FVec Ideal S128x128 .f32) (x6 : FVec Ideal S128 .f32)
    (x7 : FVec Ideal S256x64 .f32) (x8 : FVec Ideal S64 .f32) (x9 : FVec Ideal S64x1 .f32) (x10 : FVec Ideal S1 .f32)
    (wps wpd : (⟨2, ![128, 64]⟩ : Shape).Idx → EReal) (b1 : (⟨2, ![1, 64]⟩ : Shape).Idx → EReal)
    (b2 : (⟨2, ![1, 1]⟩ : Shape).Idx → EReal)
    (hwps : ∀ (k : Fin 128) (j : Fin 64), wps (ix2 k j) = x7 (ix2 ⟨k.val, by omega⟩ j))
    (hwpd : ∀ (k : Fin 128) (j : Fin 64), wpd (ix2 k j) = x7 (ix2 ⟨128 + k.val, by omega⟩ j))
    (hb1 : ∀ j : Fin 64, b1 (ix2 0 j) = x8 (ix1 j))
    (hb2 : b2 (ix2 0 0) = x10 (ix1 0)) :
    val_main_v128 (F := Ideal) x0 x1 x2 x3 x4 x5 x6 x7 x8 x9 x10
      = Cert.Spec.link (val_main_v105 (F := Ideal) x0 x1 x2 x3 x4 x5 x6) (val_main_v112 (F := Ideal) x0 x1 x2 x3 x4 x5 x6)
          wps wpd b1 x9 b2 := by
  funext i
  obtain ⟨p, q, rfl⟩ : ∃ (p : Fin 200000) (q : Fin 1), i = ix2 p q := ⟨i 0, i 1, eq_ix2 i⟩
  obtain rfl : q = 0 := Subsingleton.elim q 0
  rw [score_apply, logit_apply]
  -- unit by unit, the rectified hidden layer is the closed form's
  have hsum : (∑ j : Fin 64, val_main_v118 (F := Ideal) x0 x1 x2 x3 x4 x5 x6 x7 x8 (ix2 p j) * x9 (ix2 j (0 : Fin 1)))
      = ∑ j : Fin 64, max (Cert.Spec.hidden (val_main_v105 (F := Ideal) x0 x1 x2 x3 x4 x5 x6)
            (val_main_v112 (F := Ideal) x0 x1 x2 x3 x4 x5 x6) wps wpd p j + b1 (ix2 0 j))
            (Ideal.ofBits .f32 0x00000000#32) * x9 (ix2 j (0 : Fin 1)) :=
    Finset.sum_congr rfl fun j _ => by
      rw [relu_apply, hidden_apply x0 x1 x2 x3 x4 x5 x6 x7 wps wpd hwps hwpd, ← hb1]
  rw [hsum, ← hb2]
  generalize val_main_v105 (F := Ideal) x0 x1 x2 x3 x4 x5 x6 = hs
  generalize val_main_v112 (F := Ideal) x0 x1 x2 x3 x4 x5 x6 = hd
  rfl

end Cert.ReferenceIdeal.RefVal

end
-- ==== Proof.KHostA.lean ====
/-
  The idealized kernel's host program read stretch by stretch, in the reference's own stages.

  @main is five stretches of host operations around three pallas_calls. The reference (read one operation at a
  time: `val_main_vN` is the value its operation N writes, as a function of @main's arguments) applies the same
  host operations to the same arguments, so at every boundary between two segments each buffer the later segments
  read holds one of the reference's stages:
    * before the first projection: the self-looped source and target node lists (stages 3 and 6), the edge
      normalisation (stage 29), the node features and the first weight;
    * after it: their product (stage 30), since a projection's 25 row blocks tile the product;
    * before the second projection: the rectified first layer (stage 47) and the second weight; after it their
      product (stage 78). The reference computes the node lists and the normalisation a second time for its second
      layer (stages 51, 54, 77): the same functions of the edge list;
    * before the link scorer: the gathered rows of the second layer at the pairs' source and target nodes
      (stages 105 and 112), the upper and lower half of the scorer's first weight, its biases as one-row arrays;
    * after it: the scorer's closed form of those, which is the reference's result (stage 128) by splitting its
      sum over the 256 concatenated columns.
  Format changes are the identity on the extended reals.
-/
import proofs.«426822_j82772609728846_3_alg».proof.Proof.Gen.KernelIdeal.Frame
import proofs.«426822_j82772609728846_3_alg».proof.Proof.ReadP
import proofs.«426822_j82772609728846_3_alg».proof.Proof.Spec
import proofs.«426822_j82772609728846_3_alg».proof.Proof.RLink
import Idealize.ShloMosaic.Lib.StableHlo.Run
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx Idealize.ShloMosaic.StableHlo
open Cert.KernelIdeal Cert.KernelIdeal.Gen Cert.ReferenceIdeal.ReadP Cert.ReferenceIdeal.RefVal

variable (m : (ℓ : Loc nD τ sig) → Buf (Elt Ideal) ℓ) (ρ : Dev nD → PrngReg)

/-! ## The arguments as launched -/

abbrev X0 (c : Dev nD) : FVec Ideal S50000x128 .f32 := W0 m ρ c (Proc.devRef .tc main_arg0)
abbrev X1 (c : Dev nD) : IVec S2x800000 32 := W0 m ρ c (Proc.devRef .tc main_arg1)
abbrev X2 (c : Dev nD) : IVec S2x200000 32 := W0 m ρ c (Proc.devRef .tc main_arg2)
abbrev X3 (c : Dev nD) : FVec Ideal S128x128 .f32 := W0 m ρ c (Proc.devRef .tc main_arg3)
abbrev X4 (c : Dev nD) : FVec Ideal S128 .f32 := W0 m ρ c (Proc.devRef .tc main_arg4)
abbrev X5 (c : Dev nD) : FVec Ideal S128x128 .f32 := W0 m ρ c (Proc.devRef .tc main_arg5)
abbrev X6 (c : Dev nD) : FVec Ideal S128 .f32 := W0 m ρ c (Proc.devRef .tc main_arg6)
abbrev X7 (c : Dev nD) : FVec Ideal S256x64 .f32 := W0 m ρ c (Proc.devRef .tc main_arg7)
abbrev X8 (c : Dev nD) : FVec Ideal S64 .f32 := W0 m ρ c (Proc.devRef .tc main_arg8)
abbrev X9 (c : Dev nD) : FVec Ideal S64x1 .f32 := W0 m ρ c (Proc.devRef .tc main_arg9)
abbrev X10 (c : Dev nD) : FVec Ideal S1 .f32 := W0 m ρ c (Proc.devRef .tc main_arg10)

/-- One stretch of host operations read at one buffer: each operation's result at its own buffer is its function's
    value, at any other buffer what was there. -/
local macro "peel" l:ident : tactic => `(tactic| (dsimp only [$l:ident]; after_results))
/-- The same in one simplification pass, for the long stretches (no concatenate in them). -/
local macro "peels" l:ident : tactic => `(tactic| (dsimp only [$l:ident]; after_results_simp))

/-! ## The reference's second copy of the node lists and of the normalisation -/

section RefOnly
variable {F : FTy → Type} [FloatOps F]

theorem ref_v51 (x1 : IVec S2x800000 32) : val_main_v51 (F := F) x1 = val_main_v3 (F := F) x1 := by
  simp only [val_main_v51, val_main_v50, val_main_v49, val_main_v48, val_main_v3, val_main_v2, val_main_v1, val_main_v0]

theorem ref_v54 (x1 : IVec S2x800000 32) : val_main_v54 (F := F) x1 = val_main_v6 (F := F) x1 := by
  simp only [val_main_v54, val_main_v53, val_main_v52, val_main_v48, val_main_v6, val_main_v5, val_main_v4, val_main_v0]

theorem ref_v77 (x1 : IVec S2x800000 32) : val_main_v77 (F := F) x1 = val_main_v29 (F := F) x1 := by
  simp only [val_main_v77, val_main_v76, val_main_v75, val_main_v74, val_main_v73, val_main_v72, val_main_c_16, val_main_v71, val_main_v70, val_main_c_15, val_main_v69, val_main_v68, val_main_v67, val_main_v66, val_main_v65, val_main_c_14, val_main_v64, val_main_v63, val_main_c_13, val_main_v62, val_main_call2_v1, val_main_call2_v0, val_main_cst_12, val_main_v61, val_main_v60, val_main_v59, val_main_cst_11, val_main_v58, val_main_v57, val_main_v56, val_main_cst_10, val_main_v55, val_main_cst_9, val_main_v29, val_main_v28, val_main_v27, val_main_v26, val_main_v25, val_main_v24, val_main_c_5, val_main_v23, val_main_v22, val_main_c_4, val_main_v21, val_main_v20, val_main_v19, val_main_v18, val_main_v17, val_main_c_3, val_main_v16, val_main_v15, val_main_c, val_main_v14, val_main_call0_v1, val_main_call0_v0, val_main_cst_2, val_main_v13, val_main_v12, val_main_v11, val_main_cst_1, val_main_v10, val_main_v9, val_main_v8, val_main_cst_0, val_main_v7, val_main_cst, ref_v51, ref_v54]

end RefOnly

/-! ## Before the first projection -/

/-- The three stretches before the first projection, read at one buffer in one pass. -/
local macro "peel3" : tactic => `(tactic| (dsimp only [hostOps0_2, hostOps0_1, hostOps0]; after_results))

theorem W3_v3 (c : Dev nD) : W3 m ρ c (Proc.devRef .tc main_v3) = val_main_v3 (F := Ideal) (X1 m ρ c) := by
  show StableHlo.after hostOps0_2 (StableHlo.after hostOps0_1 (StableHlo.after hostOps0 (W0 m ρ c))) (Proc.devRef .tc main_v3) = _
  peel3
  simp only [val_main_v3, val_main_v2, val_main_v1, val_main_v0]
  try rfl

theorem W3_v6 (c : Dev nD) : W3 m ρ c (Proc.devRef .tc main_v6) = val_main_v6 (F := Ideal) (X1 m ρ c) := by
  show StableHlo.after hostOps0_2 (StableHlo.after hostOps0_1 (StableHlo.after hostOps0 (W0 m ρ c))) (Proc.devRef .tc main_v6) = _
  peel3
  simp only [val_main_v6, val_main_v5, val_main_v4, val_main_v0]
  try rfl

/-! The normalisation, stretch by stretch: the in-degrees' compare and reciprocal root after the first stretch, the
    guarded reciprocal root after the second, the product of its two gathers after the third. -/

theorem W1_v12 (c : Dev nD) : W1 m ρ c (Proc.devRef .tc main_v12) = val_main_v12 (F := Ideal) (X1 m ρ c) := by
  show StableHlo.after hostOps0 (W0 m ρ c) (Proc.devRef .tc main_v12) = _
  peel hostOps0
  simp only [val_main_v12, val_main_v11, val_main_cst_1, val_main_v10, val_main_v9, val_main_v8, val_main_cst_0, val_main_v7, val_main_cst, val_main_v6, val_main_v5, val_main_v4, val_main_v0]
  try rfl

theorem W1_v13 (c : Dev nD) : W1 m ρ c (Proc.devRef .tc main_v13) = val_main_v13 (F := Ideal) (X1 m ρ c) := by
  show StableHlo.after hostOps0 (W0 m ρ c) (Proc.devRef .tc main_v13) = _
  peel hostOps0
  simp only [val_main_v13, val_main_v10, val_main_v9, val_main_v8, val_main_cst_0, val_main_v7, val_main_cst, val_main_v6, val_main_v5, val_main_v4, val_main_v0]
  try rfl

theorem W1_cst2 (c : Dev nD) : W1 m ρ c (Proc.devRef .tc main_cst_2) = val_main_cst_2 (F := Ideal) := by
  show StableHlo.after hostOps0 (W0 m ρ c) (Proc.devRef .tc main_cst_2) = _
  peel hostOps0
  try (simp only [val_main_cst_2])
  try rfl

theorem W1_v3 (c : Dev nD) : W1 m ρ c (Proc.devRef .tc main_v3) = val_main_v3 (F := Ideal) (X1 m ρ c) := by
  show StableHlo.after hostOps0 (W0 m ρ c) (Proc.devRef .tc main_v3) = _
  peel hostOps0
  simp only [val_main_v3, val_main_v2, val_main_v1, val_main_v0]
  try rfl

theorem W1_v6 (c : Dev nD) : W1 m ρ c (Proc.devRef .tc main_v6) = val_main_v6 (F := Ideal) (X1 m ρ c) := by
  show StableHlo.after hostOps0 (W0 m ρ c) (Proc.devRef .tc main_v6) = _
  peel hostOps0
  simp only [val_main_v6, val_main_v5, val_main_v4, val_main_v0]
  try rfl

/-- The guarded reciprocal root after the second stretch (the inlined `where`: a select between the reciprocal root
    and a broadcast zero), at any float family: the stretch's three operations over what the first stretch left. -/
theorem w2_v14_gen {F : FTy → Type} [FloatOps F] (W : Valuation τ sig (Elt F)) (x1 : IVec S2x800000 32)
    (h12 : W (Proc.devRef .tc main_v12) = val_main_v12 (F := F) x1)
    (h13 : W (Proc.devRef .tc main_v13) = val_main_v13 (F := F) x1)
    (hc : W (Proc.devRef .tc main_cst_2) = val_main_cst_2 (F := F)) :
    StableHlo.after hostOps0_1 W (Proc.devRef .tc main_v14) = val_main_v14 (F := F) x1 := by
  peel hostOps0_1
  rw [h12, h13, hc]
  rfl

theorem W2_v14 (c : Dev nD) : W2 m ρ c (Proc.devRef .tc main_v14) = val_main_v14 (F := Ideal) (X1 m ρ c) :=
  w2_v14_gen (W1 m ρ c) (X1 m ρ c) (W1_v12 m ρ c) (W1_v13 m ρ c) (W1_cst2 m ρ c)

theorem W2_v3 (c : Dev nD) : W2 m ρ c (Proc.devRef .tc main_v3) = val_main_v3 (F := Ideal) (X1 m ρ c) := by
  have h := W1_v3 m ρ c
  show StableHlo.after hostOps0_1 (W1 m ρ c) (Proc.devRef .tc main_v3) = _
  generalize W1 m ρ c = W at h ⊢
  peel hostOps0_1
  exact h

theorem W2_v6 (c : Dev nD) : W2 m ρ c (Proc.devRef .tc main_v6) = val_main_v6 (F := Ideal) (X1 m ρ c) := by
  have h := W1_v6 m ρ c
  show StableHlo.after hostOps0_1 (W1 m ρ c) (Proc.devRef .tc main_v6) = _
  generalize W1 m ρ c = W at h ⊢
  peel hostOps0_1
  exact h

theorem W3_v29 (c : Dev nD) : W3 m ρ c (Proc.devRef .tc main_v29) = val_main_v29 (F := Ideal) (X1 m ρ c) := by
  have h14 := W2_v14 m ρ c
  have h3 := W2_v3 m ρ c
  have h6 := W2_v6 m ρ c
  show StableHlo.after hostOps0_2 (W2 m ρ c) (Proc.devRef .tc main_v29) = _
  generalize W2 m ρ c = W at h14 h3 h6 ⊢
  peels hostOps0_2
  rw [h14, h3, h6]
  simp only [val_main_v29, val_main_v28, val_main_v27, val_main_v26, val_main_v25, val_main_v24, val_main_c_5, val_main_v23, val_main_v22, val_main_c_4, val_main_v21, val_main_v20, val_main_v19, val_main_v18, val_main_v17, val_main_c_3, val_main_v16, val_main_v15, val_main_c]
  try rfl

theorem W3_v30 (c : Dev nD) : W3 m ρ c (Proc.devRef .tc main_v30) = truncf .bf16 (X0 m ρ c) bitsLt_bf16_f32 := by
  show StableHlo.after hostOps0_2 (StableHlo.after hostOps0_1 (StableHlo.after hostOps0 (W0 m ρ c))) (Proc.devRef .tc main_v30) = _
  peel3
  try rfl

theorem W3_v31 (c : Dev nD) : W3 m ρ c (Proc.devRef .tc main_v31) = truncf .bf16 (X3 m ρ c) bitsLt_bf16_f32 := by
  show StableHlo.after hostOps0_2 (StableHlo.after hostOps0_1 (StableHlo.after hostOps0 (W0 m ρ c))) (Proc.devRef .tc main_v31) = _
  peel3
  try rfl

theorem W3_arg2 (c : Dev nD) : W3 m ρ c (Proc.devRef .tc main_arg2) = X2 m ρ c := by
  show StableHlo.after hostOps0_2 (StableHlo.after hostOps0_1 (StableHlo.after hostOps0 (W0 m ρ c))) (Proc.devRef .tc main_arg2) = _
  peel3
  try rfl

theorem W3_arg4 (c : Dev nD) : W3 m ρ c (Proc.devRef .tc main_arg4) = X4 m ρ c := by
  show StableHlo.after hostOps0_2 (StableHlo.after hostOps0_1 (StableHlo.after hostOps0 (W0 m ρ c))) (Proc.devRef .tc main_arg4) = _
  peel3
  try rfl

theorem W3_arg5 (c : Dev nD) : W3 m ρ c (Proc.devRef .tc main_arg5) = X5 m ρ c := by
  show StableHlo.after hostOps0_2 (StableHlo.after hostOps0_1 (StableHlo.after hostOps0 (W0 m ρ c))) (Proc.devRef .tc main_arg5) = _
  peel3
  try rfl

theorem W3_arg6 (c : Dev nD) : W3 m ρ c (Proc.devRef .tc main_arg6) = X6 m ρ c := by
  show StableHlo.after hostOps0_2 (StableHlo.after hostOps0_1 (StableHlo.after hostOps0 (W0 m ρ c))) (Proc.devRef .tc main_arg6) = _
  peel3
  try rfl

theorem W3_arg7 (c : Dev nD) : W3 m ρ c (Proc.devRef .tc main_arg7) = X7 m ρ c := by
  show StableHlo.after hostOps0_2 (StableHlo.after hostOps0_1 (StableHlo.after hostOps0 (W0 m ρ c))) (Proc.devRef .tc main_arg7) = _
  peel3
  try rfl

theorem W3_arg8 (c : Dev nD) : W3 m ρ c (Proc.devRef .tc main_arg8) = X8 m ρ c := by
  show StableHlo.after hostOps0_2 (StableHlo.after hostOps0_1 (StableHlo.after hostOps0 (W0 m ρ c))) (Proc.devRef .tc main_arg8) = _
  peel3
  try rfl

theorem W3_arg9 (c : Dev nD) : W3 m ρ c (Proc.devRef .tc main_arg9) = X9 m ρ c := by
  show StableHlo.after hostOps0_2 (StableHlo.after hostOps0_1 (StableHlo.after hostOps0 (W0 m ρ c))) (Proc.devRef .tc main_arg9) = _
  peel3
  try rfl

theorem W3_arg10 (c : Dev nD) : W3 m ρ c (Proc.devRef .tc main_arg10) = X10 m ρ c := by
  show StableHlo.after hostOps0_2 (StableHlo.after hostOps0_1 (StableHlo.after hostOps0 (W0 m ρ c))) (Proc.devRef .tc main_arg10) = _
  peel3
  try rfl

end Cert.KernelIdeal.Val

end
-- ==== Proof.KProj.lean ====
/-
  The two projection kernels' values. Each grid point t of 25 loads rows 2000 t .. 2000 t + 1999 of the left array
  and the whole right array, and writes their product into the same rows of the output; the 25 row blocks tile the
  50000 rows, so the output array after the run is the whole product, entry (r, c) the sum over k of x(r, k) * w(k, c).
-/
import proofs.«426822_j82772609728846_3_alg».proof.Proof.Gen.KernelIdeal.Frame
import proofs.«426822_j82772609728846_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen

/- The TensorCore's buffer contents when the region is entered: any. -/
variable (V : (c : Dev nD) → (b : Ref sig .tc) → Buf (Elt Ideal) ((c : Thread nD τ).loc b))

/-! ## One tile's product, entry by entry -/

/-- The left operand's row coordinate at output entry `i` is `i`'s row. -/
theorem proj_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column coordinate is the contraction index. -/
theorem proj_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row coordinate is the contraction index. -/
theorem proj_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand's column coordinate at output entry `i` is `i`'s column. -/
theorem proj_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A 2000 x 128 tile times a 128 x 128 array into the zero accumulator: entry (p, q) is the sum over k of
    x(p, k) * w(k, q). -/
theorem proj_tile_apply (x : FVec Ideal S2000x128 .bf16) (w : FVec Ideal S128x128 .bf16) (p : Fin 2000) (q : Fin 128) :
    matmul dot_S2000x128_S128x128_S2000x128_1_0_0_1_n_n none x w (constant (F := Ideal) S2000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact proj_lhs_0 _ _
    | ⟨1, _⟩ => exact (proj_lhs_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (proj_rhs_0 _ _).trans hk
    | ⟨1, _⟩ => exact proj_rhs_1 _ _)
  rw [el, er]

/-- The zero offsets of a whole-buffer load or store, as a constant function. -/
theorem proj_hz : (![0, 0] : Fin 2 → Nat) = fun _ => 0 := funext fun a => by fin_cases a <;> rfl

/-! ## The first projection: from the 25 row blocks to the array -/

/-- The first kernel's payload at entry (p, q) of its tile. -/
theorem proj0_pay_apply (x : Vec Ideal S2000x128 .bf16) (w : Vec Ideal S128x128 .bf16) (p : Fin 2000) (q : Fin 128) :
    k0_pay1 (F := Ideal) x w (ix2 p q) = ∑ k : Fin 128, x (ix2 p k) * w (ix2 k q) := by
  unfold k0_pay1
  simp only [shapeCast_self]
  exact proj_tile_apply x w p q

/-- The payload at any entry of its tile. -/
theorem proj0_pay_at (x : Vec Ideal S2000x128 .bf16) (w : Vec Ideal S128x128 .bf16) (y : S2000x128.Idx) :
    k0_pay1 (F := Ideal) x w y = ∑ k : Fin 128, x (ix2 (y 0) k) * w (ix2 k (y 1)) := by
  obtain ⟨p, q, rfl⟩ : ∃ (p : Fin 2000) (q : Fin 128), y = ix2 p q := ⟨y 0, y 1, eq_ix2 y⟩
  exact proj0_pay_apply x w p q

/-- The printed index maps, decided over the 25 grid points: the left operand's and the output's block index is
    (t, 0), the right operand's (0, 0). -/
theorem proj0_idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t: entry (p, k) of the block is entry (2000 t + p, k) of the array. -/
theorem proj0_lblk_apply (c : Dev nD) (t : Fin cfg0.N) (y : S2000x128.Idx) (i : S50000x128.Idx)
    (h0 : (i 0).val = t.val * 2000 + (y 0).val) (h1 : (i 1).val = (y 1).val) :
    (iblk0 V c 0 t : Vec Ideal S2000x128 .bf16) y = (V c main_v30 : S50000x128.Idx → EReal) i := by
  obtain ⟨e0, e1, -, -, -, -⟩ := proj0_idx_facts t
  unfold iblk0
  rw [View.read_apply]
  show V c main_v30 _ = V c main_v30 _
  congr 1
  funext a
  apply Fin.ext
  match a with
  | ⟨0, _⟩ => show win0_0.index t (0 : Fin 2) * 2000 + 1 * (y 0).val = (i 0).val; rw [e0, h0]; omega
  | ⟨1, _⟩ => show win0_0.index t (1 : Fin 2) * 128 + 1 * (y 1).val = (i 1).val; rw [e1, h1]; omega

/-- The right operand's block at every point is the whole array. -/
theorem proj0_rblk_apply (c : Dev nD) (t : Fin cfg0.N) (y i : S128x128.Idx)
    (h0 : (i 0).val = (y 0).val) (h1 : (i 1).val = (y 1).val) :
    (iblk0 V c 1 t : Vec Ideal S128x128 .bf16) y = (V c main_v31 : S128x128.Idx → EReal) i := by
  obtain ⟨-, -, e2, e3, -, -⟩ := proj0_idx_facts t
  unfold iblk0
  rw [View.read_apply]
  show V c main_v31 _ = V c main_v31 _
  congr 1
  funext a
  apply Fin.ext
  match a with
  | ⟨0, _⟩ => show win0_1.index t (0 : Fin 2) * 128 + 1 * (y 0).val = (i 0).val; rw [e2, h0]; omega
  | ⟨1, _⟩ => show win0_1.index t (1 : Fin 2) * 128 + 1 * (y 1).val = (i 1).val; rw [e3, h1]; omega

/-- What point t writes back is rows 2000 t .. 2000 t + 1999 of the product of the two operand arrays. -/
theorem proj0_flushed_eq (c : Dev nD) (t : Fin cfg0.N) :
    (dat0 (F := Ideal) V c).flushed 2 t
      = ((cfg0.win 2).blk t).view.read (Elt Ideal) (Cert.Spec.proj (V c main_v30) (V c main_v31)) := by
  show (cfg0.win 2).cut (grid0.coords t) ((dat0 V c).after 2 t) = _
  rw [after0_2]
  unfold out0_2
  rw [View.canon_unit_zero proj_hz]
  simp only [View.ld_unit_zero (S := S2000x128) proj_hz, View.ld_unit_zero (S := S128x128) proj_hz]
  obtain ⟨-, -, -, -, e4, e5⟩ := proj0_idx_facts t
  funext j
  refine (proj0_pay_at _ _ _).trans ?_
  show _ = Cert.Spec.proj (V c main_v30) (V c main_v31) (((cfg0.win 2).blk t).view.emb j)
  unfold Cert.Spec.proj
  refine Finset.sum_congr rfl fun k _ => ?_
  refine congrArg₂ (fun a b : EReal => a * b) (proj0_lblk_apply V c t _ _ ?_ ?_) (proj0_rblk_apply V c t _ _ ?_ ?_)
  · show win0_2.index t (0 : Fin 2) * 2000 + 1 * (j 0).val = t.val * 2000 + (j 0).val; rw [e4]; omega
  · rfl
  · rfl
  · show win0_2.index t (1 : Fin 2) * 128 + 1 * (j 1).val = (j 1).val; rw [e5]; omega

/-- An entry of the output array is in point t's block iff each coordinate is in the block's range on its axis. -/
theorem proj0_mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

/-- Row r of the output is in the block of point r / 2000: the 25 blocks cover the 50000 rows. -/
theorem proj0_cover (i : S50000x128.Idx) :
    ∃ t : Fin cfg0.N, (cfg0.win 2).flush t = true ∧ i ∈ ((cfg0.win 2).blk t).view.set := by
  have hN : cfg0.N = 25 := N_0
  have hi0 : (i 0).val < 50000 := idx2_lt0 i
  have hi1 : (i 1).val < 128 := idx2_lt1 i
  obtain ⟨t, ht⟩ : ∃ t : Fin cfg0.N, t.val = (i 0).val / 2000 := ⟨⟨(i 0).val / 2000, by rw [hN]; omega⟩, rfl⟩
  obtain ⟨-, -, -, -, e4, e5⟩ := proj0_idx_facts t
  refine ⟨t, flush0_2 t, ?_⟩
  rw [proj0_mem_blk]
  intro a
  match a with
  | ⟨0, _⟩ => show win0_2.index t (0 : Fin 2) * 2000 ≤ (i 0).val ∧ (i 0).val < win0_2.index t (0 : Fin 2) * 2000 + 2000; rw [e4, ht]; omega
  | ⟨1, _⟩ => show win0_2.index t (1 : Fin 2) * 128 ≤ (i 1).val ∧ (i 1).val < win0_2.index t (1 : Fin 2) * 128 + 128; rw [e5]; omega

/-- The first projection's output array after its 25 grid points: the product of its two operand arrays. -/
theorem proj0_value (c : Dev nD) :
    (dat0 (F := Ideal) V c).arrAt 2 cfg0.N = Cert.Spec.proj (V c main_v30) (V c main_v31) :=
  (dat0 (F := Ideal) V c).arrAt_eq_of_cover 2 (Cert.Spec.proj (V c main_v30) (V c main_v31))
    (fun t _ => proj0_flushed_eq V c t) proj0_cover

/-! ## The second projection: from the 25 row blocks to the array -/

/-- The second kernel's payload at entry (p, q) of its tile. -/
theorem proj1_pay_apply (x : Vec Ideal S2000x128 .bf16) (w : Vec Ideal S128x128 .bf16) (p : Fin 2000) (q : Fin 128) :
    k1_pay1 (F := Ideal) x w (ix2 p q) = ∑ k : Fin 128, x (ix2 p k) * w (ix2 k q) := by
  unfold k1_pay1
  simp only [shapeCast_self]
  exact proj_tile_apply x w p q

/-- The payload at any entry of its tile. -/
theorem proj1_pay_at (x : Vec Ideal S2000x128 .bf16) (w : Vec Ideal S128x128 .bf16) (y : S2000x128.Idx) :
    k1_pay1 (F := Ideal) x w y = ∑ k : Fin 128, x (ix2 (y 0) k) * w (ix2 k (y 1)) := by
  obtain ⟨p, q, rfl⟩ : ∃ (p : Fin 2000) (q : Fin 128), y = ix2 p q := ⟨y 0, y 1, eq_ix2 y⟩
  exact proj1_pay_apply x w p q

/-- The printed index maps, decided over the 25 grid points: the left operand's and the output's block index is
    (t, 0), the right operand's (0, 0). -/
theorem proj1_idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point t: entry (p, k) of the block is entry (2000 t + p, k) of the array. -/
theorem proj1_lblk_apply (c : Dev nD) (t : Fin cfg1.N) (y : S2000x128.Idx) (i : S50000x128.Idx)
    (h0 : (i 0).val = t.val * 2000 + (y 0).val) (h1 : (i 1).val = (y 1).val) :
    (iblk1 V c 0 t : Vec Ideal S2000x128 .bf16) y = (V c main_v51 : S50000x128.Idx → EReal) i := by
  obtain ⟨e0, e1, -, -, -, -⟩ := proj1_idx_facts t
  unfold iblk1
  rw [View.read_apply]
  show V c main_v51 _ = V c main_v51 _
  congr 1
  funext a
  apply Fin.ext
  match a with
  | ⟨0, _⟩ => show win1_0.index t (0 : Fin 2) * 2000 + 1 * (y 0).val = (i 0).val; rw [e0, h0]; omega
  | ⟨1, _⟩ => show win1_0.index t (1 : Fin 2) * 128 + 1 * (y 1).val = (i 1).val; rw [e1, h1]; omega

/-- The right operand's block at every point is the whole array. -/
theorem proj1_rblk_apply (c : Dev nD) (t : Fin cfg1.N) (y i : S128x128.Idx)
    (h0 : (i 0).val = (y 0).val) (h1 : (i 1).val = (y 1).val) :
    (iblk1 V c 1 t : Vec Ideal S128x128 .bf16) y = (V c main_v52 : S128x128.Idx → EReal) i := by
  obtain ⟨-, -, e2, e3, -, -⟩ := proj1_idx_facts t
  unfold iblk1
  rw [View.read_apply]
  show V c main_v52 _ = V c main_v52 _
  congr 1
  funext a
  apply Fin.ext
  match a with
  | ⟨0, _⟩ => show win1_1.index t (0 : Fin 2) * 128 + 1 * (y 0).val = (i 0).val; rw [e2, h0]; omega
  | ⟨1, _⟩ => show win1_1.index t (1 : Fin 2) * 128 + 1 * (y 1).val = (i 1).val; rw [e3, h1]; omega

/-- What point t writes back is rows 2000 t .. 2000 t + 1999 of the product of the two operand arrays. -/
theorem proj1_flushed_eq (c : Dev nD) (t : Fin cfg1.N) :
    (dat1 (F := Ideal) V c).flushed 2 t
      = ((cfg1.win 2).blk t).view.read (Elt Ideal) (Cert.Spec.proj (V c main_v51) (V c main_v52)) := by
  show (cfg1.win 2).cut (grid1.coords t) ((dat1 V c).after 2 t) = _
  rw [after1_2]
  unfold out1_2
  rw [View.canon_unit_zero proj_hz]
  simp only [View.ld_unit_zero (S := S2000x128) proj_hz, View.ld_unit_zero (S := S128x128) proj_hz]
  obtain ⟨-, -, -, -, e4, e5⟩ := proj1_idx_facts t
  funext j
  refine (proj1_pay_at _ _ _).trans ?_
  show _ = Cert.Spec.proj (V c main_v51) (V c main_v52) (((cfg1.win 2).blk t).view.emb j)
  unfold Cert.Spec.proj
  refine Finset.sum_congr rfl fun k _ => ?_
  refine congrArg₂ (fun a b : EReal => a * b) (proj1_lblk_apply V c t _ _ ?_ ?_) (proj1_rblk_apply V c t _ _ ?_ ?_)
  · show win1_2.index t (0 : Fin 2) * 2000 + 1 * (j 0).val = t.val * 2000 + (j 0).val; rw [e4]; omega
  · rfl
  · rfl
  · show win1_2.index t (1 : Fin 2) * 128 + 1 * (j 1).val = (j 1).val; rw [e5]; omega

/-- An entry of the output array is in point t's block iff each coordinate is in the block's range on its axis. -/
theorem proj1_mem_blk (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v53).slice (win1_2.rect t)).set ↔ _
  rw [View.set_slice_whole, Rect.mem_set_unit]
  exact Iff.rfl

/-- Row r of the output is in the block of point r / 2000: the 25 blocks cover the 50000 rows. -/
theorem proj1_cover (i : S50000x128.Idx) :
    ∃ t : Fin cfg1.N, (cfg1.win 2).flush t = true ∧ i ∈ ((cfg1.win 2).blk t).view.set := by
  have hN : cfg1.N = 25 := N_1
  have hi0 : (i 0).val < 50000 := idx2_lt0 i
  have hi1 : (i 1).val < 128 := idx2_lt1 i
  obtain ⟨t, ht⟩ : ∃ t : Fin cfg1.N, t.val = (i 0).val / 2000 := ⟨⟨(i 0).val / 2000, by rw [hN]; omega⟩, rfl⟩
  obtain ⟨-, -, -, -, e4, e5⟩ := proj1_idx_facts t
  refine ⟨t, flush1_2 t, ?_⟩
  rw [proj1_mem_blk]
  intro a
  match a with
  | ⟨0, _⟩ => show win1_2.index t (0 : Fin 2) * 2000 ≤ (i 0).val ∧ (i 0).val < win1_2.index t (0 : Fin 2) * 2000 + 2000; rw [e4, ht]; omega
  | ⟨1, _⟩ => show win1_2.index t (1 : Fin 2) * 128 ≤ (i 1).val ∧ (i 1).val < win1_2.index t (1 : Fin 2) * 128 + 128; rw [e5]; omega

/-- The second projection's output array after its 25 grid points: the product of its two operand arrays. -/
theorem proj1_value (c : Dev nD) :
    (dat1 (F := Ideal) V c).arrAt 2 cfg1.N = Cert.Spec.proj (V c main_v51) (V c main_v52) :=
  (dat1 (F := Ideal) V c).arrAt_eq_of_cover 2 (Cert.Spec.proj (V c main_v51) (V c main_v52))
    (fun t _ => proj1_flushed_eq V c t) proj1_cover

end Cert.KernelIdeal.Val

end
-- ==== Proof.KHostB.lean ====
/-
  The host program between the two projections: after the first projection its output is the reference's first
  product; the stretch after it computes the rectified first layer; after the second projection its output is the
  reference's second product.
-/
import proofs.«426822_j82772609728846_3_alg».proof.Proof.KHostA
import proofs.«426822_j82772609728846_3_alg».proof.Proof.KProj
import Idealize.ShloMosaic.Lib.StableHlo.Run
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx Idealize.ShloMosaic.StableHlo
open Cert.KernelIdeal Cert.KernelIdeal.Gen Cert.ReferenceIdeal.ReadP Cert.ReferenceIdeal.RefVal

variable (m : (ℓ : Loc nD τ sig) → Buf (Elt Ideal) ℓ) (ρ : Dev nD → PrngReg)

local macro "peel" l:ident : tactic => `(tactic| (dsimp only [$l:ident]; after_results))
local macro "peels" l:ident : tactic => `(tactic| (dsimp only [$l:ident]; after_results_simp))

/-! ## After the first projection -/

theorem proj_truncf (x : FVec Ideal S50000x128 .f32) (w : FVec Ideal S128x128 .f32) :
    Cert.Spec.proj (truncf .bf16 x bitsLt_bf16_f32) (truncf .bf16 w bitsLt_bf16_f32) = Cert.Spec.proj x w := rfl

theorem W4_v32 (c : Dev nD) : W4 m ρ c (Proc.devRef .tc main_v32) = val_main_v30 (F := Ideal) (X0 m ρ c) (X3 m ρ c) := by
  have h := W4_arr m ρ c 2
  rw [proj0_value (V3 m ρ) c] at h
  refine h.trans ?_
  have e30 : V3 m ρ c main_v30 = truncf .bf16 (X0 m ρ c) bitsLt_bf16_f32 := W3_v30 m ρ c
  have e31 : V3 m ρ c main_v31 = truncf .bf16 (X3 m ρ c) bitsLt_bf16_f32 := W3_v31 m ρ c
  rw [e30, e31, proj_truncf]
  exact (ref_dot _ _).symm

theorem W4_v3 (c : Dev nD) : W4 m ρ c (Proc.devRef .tc main_v3) = val_main_v3 (F := Ideal) (X1 m ρ c) :=
  (W4_of_ne m ρ c main_v3 (by decide)).trans (W3_v3 m ρ c)
theorem W4_v6 (c : Dev nD) : W4 m ρ c (Proc.devRef .tc main_v6) = val_main_v6 (F := Ideal) (X1 m ρ c) :=
  (W4_of_ne m ρ c main_v6 (by decide)).trans (W3_v6 m ρ c)
theorem W4_v29 (c : Dev nD) : W4 m ρ c (Proc.devRef .tc main_v29) = val_main_v29 (F := Ideal) (X1 m ρ c) :=
  (W4_of_ne m ρ c main_v29 (by decide)).trans (W3_v29 m ρ c)
theorem W4_arg2 (c : Dev nD) : W4 m ρ c (Proc.devRef .tc main_arg2) = X2 m ρ c :=
  (W4_of_ne m ρ c main_arg2 (by decide)).trans (W3_arg2 m ρ c)
theorem W4_arg4 (c : Dev nD) : W4 m ρ c (Proc.devRef .tc main_arg4) = X4 m ρ c :=
  (W4_of_ne m ρ c main_arg4 (by decide)).trans (W3_arg4 m ρ c)
theorem W4_arg5 (c : Dev nD) : W4 m ρ c (Proc.devRef .tc main_arg5) = X5 m ρ c :=
  (W4_of_ne m ρ c main_arg5 (by decide)).trans (W3_arg5 m ρ c)
theorem W4_arg6 (c : Dev nD) : W4 m ρ c (Proc.devRef .tc main_arg6) = X6 m ρ c :=
  (W4_of_ne m ρ c main_arg6 (by decide)).trans (W3_arg6 m ρ c)
theorem W4_arg7 (c : Dev nD) : W4 m ρ c (Proc.devRef .tc main_arg7) = X7 m ρ c :=
  (W4_of_ne m ρ c main_arg7 (by decide)).trans (W3_arg7 m ρ c)
theorem W4_arg8 (c : Dev nD) : W4 m ρ c (Proc.devRef .tc main_arg8) = X8 m ρ c :=
  (W4_of_ne m ρ c main_arg8 (by decide)).trans (W3_arg8 m ρ c)
theorem W4_arg9 (c : Dev nD) : W4 m ρ c (Proc.devRef .tc main_arg9) = X9 m ρ c :=
  (W4_of_ne m ρ c main_arg9 (by decide)).trans (W3_arg9 m ρ c)
theorem W4_arg10 (c : Dev nD) : W4 m ρ c (Proc.devRef .tc main_arg10) = X10 m ρ c :=
  (W4_of_ne m ρ c main_arg10 (by decide)).trans (W3_arg10 m ρ c)

/-! ## Before the second projection -/

/-- The rectified first layer: the reference's stage 47 of the arguments as launched. -/
abbrev H1 (c : Dev nD) : FVec Ideal S50000x128 .f32 :=
  val_main_v47 (F := Ideal) (X0 m ρ c) (X1 m ρ c) (X3 m ρ c) (X4 m ρ c)

set_option maxHeartbeats 2000000 in
theorem W5_v51 (c : Dev nD) : W5 m ρ c (Proc.devRef .tc main_v51)
    = truncf .bf16 (H1 m ρ c) bitsLt_bf16_f32 := by
  show StableHlo.after hostOps1 (W4 m ρ c) (Proc.devRef .tc main_v51) = _
  peels hostOps1
  rw [W4_v32 m ρ c, W4_v3 m ρ c, W4_v6 m ρ c, W4_v29 m ρ c, W4_arg4 m ρ c]
  simp only [val_main_v47, val_main_call1_v0, val_main_call1_cst, val_main_v46, val_main_v45, val_main_v44, val_main_v43, val_main_v42, val_main_v41, val_main_cst_8, val_main_v40, val_main_v39, val_main_v38, val_main_v37, val_main_v36, val_main_v35, val_main_v34, val_main_v33, val_main_c_7, val_main_v32, val_main_v31, val_main_c_6]
  try rfl

theorem W5_v52 (c : Dev nD) : W5 m ρ c (Proc.devRef .tc main_v52) = truncf .bf16 (X5 m ρ c) bitsLt_bf16_f32 := by
  show StableHlo.after hostOps1 (W4 m ρ c) (Proc.devRef .tc main_v52) = _
  peels hostOps1
  rw [W4_arg5 m ρ c]

theorem W5_v3 (c : Dev nD) : W5 m ρ c (Proc.devRef .tc main_v3) = val_main_v3 (F := Ideal) (X1 m ρ c) := by
  show StableHlo.after hostOps1 (W4 m ρ c) (Proc.devRef .tc main_v3) = _
  peels hostOps1
  exact W4_v3 m ρ c

theorem W5_v6 (c : Dev nD) : W5 m ρ c (Proc.devRef .tc main_v6) = val_main_v6 (F := Ideal) (X1 m ρ c) := by
  show StableHlo.after hostOps1 (W4 m ρ c) (Proc.devRef .tc main_v6) = _
  peels hostOps1
  exact W4_v6 m ρ c

theorem W5_v29 (c : Dev nD) : W5 m ρ c (Proc.devRef .tc main_v29) = val_main_v29 (F := Ideal) (X1 m ρ c) := by
  show StableHlo.after hostOps1 (W4 m ρ c) (Proc.devRef .tc main_v29) = _
  peels hostOps1
  exact W4_v29 m ρ c

theorem W5_arg2 (c : Dev nD) : W5 m ρ c (Proc.devRef .tc main_arg2) = X2 m ρ c := by
  show StableHlo.after hostOps1 (W4 m ρ c) (Proc.devRef .tc main_arg2) = _
  peels hostOps1
  exact W4_arg2 m ρ c

theorem W5_arg6 (c : Dev nD) : W5 m ρ c (Proc.devRef .tc main_arg6) = X6 m ρ c := by
  show StableHlo.after hostOps1 (W4 m ρ c) (Proc.devRef .tc main_arg6) = _
  peels hostOps1
  exact W4_arg6 m ρ c

theorem W5_arg7 (c : Dev nD) : W5 m ρ c (Proc.devRef .tc main_arg7) = X7 m ρ c := by
  show StableHlo.after hostOps1 (W4 m ρ c) (Proc.devRef .tc main_arg7) = _
  peels hostOps1
  exact W4_arg7 m ρ c

theorem W5_arg8 (c : Dev nD) : W5 m ρ c (Proc.devRef .tc main_arg8) = X8 m ρ c := by
  show StableHlo.after hostOps1 (W4 m ρ c) (Proc.devRef .tc main_arg8) = _
  peels hostOps1
  exact W4_arg8 m ρ c

theorem W5_arg9 (c : Dev nD) : W5 m ρ c (Proc.devRef .tc main_arg9) = X9 m ρ c := by
  show StableHlo.after hostOps1 (W4 m ρ c) (Proc.devRef .tc main_arg9) = _
  peels hostOps1
  exact W4_arg9 m ρ c

theorem W5_arg10 (c : Dev nD) : W5 m ρ c (Proc.devRef .tc main_arg10) = X10 m ρ c := by
  show StableHlo.after hostOps1 (W4 m ρ c) (Proc.devRef .tc main_arg10) = _
  peels hostOps1
  exact W4_arg10 m ρ c

/-! ## After the second projection -/

theorem W6_v53 (c : Dev nD) : W6 m ρ c (Proc.devRef .tc main_v53)
    = val_main_v78 (F := Ideal) (X0 m ρ c) (X1 m ρ c) (X3 m ρ c) (X4 m ρ c) (X5 m ρ c) := by
  have h := W6_arr m ρ c 2
  rw [proj1_value (V5 m ρ) c] at h
  refine h.trans ?_
  have e51 : V5 m ρ c main_v51 = truncf .bf16 (H1 m ρ c) bitsLt_bf16_f32 := W5_v51 m ρ c
  have e52 : V5 m ρ c main_v52 = truncf .bf16 (X5 m ρ c) bitsLt_bf16_f32 := W5_v52 m ρ c
  rw [e51, e52, proj_truncf]
  exact (ref_dot _ _).symm

theorem W6_v3 (c : Dev nD) : W6 m ρ c (Proc.devRef .tc main_v3) = val_main_v51 (F := Ideal) (X1 m ρ c) :=
  (W6_of_ne m ρ c main_v3 (by decide)).trans ((W5_v3 m ρ c).trans (ref_v51 _).symm)
theorem W6_v6 (c : Dev nD) : W6 m ρ c (Proc.devRef .tc main_v6) = val_main_v54 (F := Ideal) (X1 m ρ c) :=
  (W6_of_ne m ρ c main_v6 (by decide)).trans ((W5_v6 m ρ c).trans (ref_v54 _).symm)
theorem W6_v29 (c : Dev nD) : W6 m ρ c (Proc.devRef .tc main_v29) = val_main_v77 (F := Ideal) (X1 m ρ c) :=
  (W6_of_ne m ρ c main_v29 (by decide)).trans ((W5_v29 m ρ c).trans (ref_v77 _).symm)
theorem W6_arg2 (c : Dev nD) : W6 m ρ c (Proc.devRef .tc main_arg2) = X2 m ρ c :=
  (W6_of_ne m ρ c main_arg2 (by decide)).trans (W5_arg2 m ρ c)
theorem W6_arg6 (c : Dev nD) : W6 m ρ c (Proc.devRef .tc main_arg6) = X6 m ρ c :=
  (W6_of_ne m ρ c main_arg6 (by decide)).trans (W5_arg6 m ρ c)
theorem W6_arg7 (c : Dev nD) : W6 m ρ c (Proc.devRef .tc main_arg7) = X7 m ρ c :=
  (W6_of_ne m ρ c main_arg7 (by decide)).trans (W5_arg7 m ρ c)
theorem W6_arg8 (c : Dev nD) : W6 m ρ c (Proc.devRef .tc main_arg8) = X8 m ρ c :=
  (W6_of_ne m ρ c main_arg8 (by decide)).trans (W5_arg8 m ρ c)
theorem W6_arg9 (c : Dev nD) : W6 m ρ c (Proc.devRef .tc main_arg9) = X9 m ρ c :=
  (W6_of_ne m ρ c main_arg9 (by decide)).trans (W5_arg9 m ρ c)
theorem W6_arg10 (c : Dev nD) : W6 m ρ c (Proc.devRef .tc main_arg10) = X10 m ρ c :=
  (W6_of_ne m ρ c main_arg10 (by decide)).trans (W5_arg10 m ρ c)

end Cert.KernelIdeal.Val

end
-- ==== Proof.KHostC.lean ====
/-
  The stretch before the link scorer: the second layer, its rows gathered at the pairs' source and target nodes, the
  two halves of the scorer's first weight and its biases as one-row arrays.
-/
import proofs.«426822_j82772609728846_3_alg».proof.Proof.KHostB
import Idealize.ShloMosaic.Lib.StableHlo.Run
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx Idealize.ShloMosaic.StableHlo
open Cert.KernelIdeal Cert.KernelIdeal.Gen Cert.ReferenceIdeal.ReadP Cert.ReferenceIdeal.RefVal

variable (m : (ℓ : Loc nD τ sig) → Buf (Elt Ideal) ℓ) (ρ : Dev nD → PrngReg)

local macro "peel" l:ident : tactic => `(tactic| (dsimp only [$l:ident]; after_results))
local macro "peels" l:ident : tactic => `(tactic| (dsimp only [$l:ident]; after_results_simp))

/-! ## Before the link scorer -/

/-! At any float family: the last stretch over what the second projection left, the second layer rounded to the
    narrower format before its rows are gathered (the rounding is the identity on the extended reals). -/

section AnyFamily
variable {F : FTy → Type} [FloatOps F]

set_option maxHeartbeats 2000000 in
theorem s2_v81 (W : Valuation τ sig (Elt F)) (x0 : FVec F S50000x128 .f32) (x1 : IVec S2x800000 32) (x2 : IVec S2x200000 32)
    (x3 : FVec F S128x128 .f32) (x4 : FVec F S128 .f32) (x5 : FVec F S128x128 .f32) (x6 : FVec F S128 .f32)
    (h53 : W (Proc.devRef .tc main_v53) = val_main_v78 (F := F) x0 x1 x3 x4 x5)
    (h3 : W (Proc.devRef .tc main_v3) = val_main_v51 (F := F) x1)
    (h6 : W (Proc.devRef .tc main_v6) = val_main_v54 (F := F) x1)
    (h29 : W (Proc.devRef .tc main_v29) = val_main_v77 (F := F) x1)
    (ha6 : W (Proc.devRef .tc main_arg6) = x6) (ha2 : W (Proc.devRef .tc main_arg2) = x2) :
    StableHlo.after hostOps2 W (Proc.devRef .tc main_v81)
      = Host.gather gather_S50000x128_S200000x1_S200000x128_1_0_n_n_0_1_1128 (truncf .bf16 (val_main_v94 (F := F) x0 x1 x3 x4 x5 x6) bitsLt_bf16_f32)
          (val_main_v104 (F := F) x2) := by
  peels hostOps2
  rw [h53, h3, h6, h29, ha6, ha2]
  simp only [val_main_v104, val_main_v103, val_main_v102, val_main_v101, val_main_c_21, val_main_v100, val_main_v99, val_main_c_20, val_main_v96, val_main_v95, val_main_v94, val_main_v93, val_main_v92, val_main_v91, val_main_v90, val_main_v89, val_main_cst_19, val_main_v88, val_main_v87, val_main_v86, val_main_v85, val_main_v84, val_main_v83, val_main_v82, val_main_v81, val_main_c_18, val_main_v80, val_main_v79, val_main_c_17]
  try rfl

set_option maxHeartbeats 2000000 in
theorem s2_v88 (W : Valuation τ sig (Elt F)) (x0 : FVec F S50000x128 .f32) (x1 : IVec S2x800000 32) (x2 : IVec S2x200000 32)
    (x3 : FVec F S128x128 .f32) (x4 : FVec F S128 .f32) (x5 : FVec F S128x128 .f32) (x6 : FVec F S128 .f32)
    (h53 : W (Proc.devRef .tc main_v53) = val_main_v78 (F := F) x0 x1 x3 x4 x5)
    (h3 : W (Proc.devRef .tc main_v3) = val_main_v51 (F := F) x1)
    (h6 : W (Proc.devRef .tc main_v6) = val_main_v54 (F := F) x1)
    (h29 : W (Proc.devRef .tc main_v29) = val_main_v77 (F := F) x1)
    (ha6 : W (Proc.devRef .tc main_arg6) = x6) (ha2 : W (Proc.devRef .tc main_arg2) = x2) :
    StableHlo.after hostOps2 W (Proc.devRef .tc main_v88)
      = Host.gather gather_S50000x128_S200000x1_S200000x128_1_0_n_n_0_1_1128 (truncf .bf16 (val_main_v94 (F := F) x0 x1 x3 x4 x5 x6) bitsLt_bf16_f32)
          (val_main_v111 (F := F) x2) := by
  peels hostOps2
  rw [h53, h3, h6, h29, ha6, ha2]
  simp only [val_main_v111, val_main_v110, val_main_v109, val_main_v108, val_main_c_23, val_main_v107, val_main_v106, val_main_c_22, val_main_v98, val_main_v97, val_main_v94, val_main_v93, val_main_v92, val_main_v91, val_main_v90, val_main_v89, val_main_cst_19, val_main_v88, val_main_v87, val_main_v86, val_main_v85, val_main_v84, val_main_v83, val_main_v82, val_main_v81, val_main_c_18, val_main_v80, val_main_v79, val_main_c_17]
  try rfl

end AnyFamily

/-- Gathering the rows of an array rounded to the narrower format is gathering the rows of the array. -/
theorem gather_truncf (a : FVec Ideal S50000x128 .f32) (i : IVec S200000x1 32) :
    Host.gather gather_S50000x128_S200000x1_S200000x128_1_0_n_n_0_1_1128 (truncf .bf16 a bitsLt_bf16_f32) i
      = Host.gather Cert.ReferenceIdeal.gather_S50000x128_S200000x1_S200000x128_1_0_n_n_0_1_1128 a i := rfl

theorem W7_v81 (c : Dev nD) : W7 m ρ c (Proc.devRef .tc main_v81)
    = val_main_v105 (F := Ideal) (X0 m ρ c) (X1 m ρ c) (X2 m ρ c) (X3 m ρ c) (X4 m ρ c) (X5 m ρ c) (X6 m ρ c) :=
  (s2_v81 (W6 m ρ c) (X0 m ρ c) (X1 m ρ c) (X2 m ρ c) (X3 m ρ c) (X4 m ρ c) (X5 m ρ c) (X6 m ρ c)
    (W6_v53 m ρ c) (W6_v3 m ρ c) (W6_v6 m ρ c) (W6_v29 m ρ c) (W6_arg6 m ρ c) (W6_arg2 m ρ c)).trans
    (gather_truncf _ _)

theorem W7_v88 (c : Dev nD) : W7 m ρ c (Proc.devRef .tc main_v88)
    = val_main_v112 (F := Ideal) (X0 m ρ c) (X1 m ρ c) (X2 m ρ c) (X3 m ρ c) (X4 m ρ c) (X5 m ρ c) (X6 m ρ c) :=
  (s2_v88 (W6 m ρ c) (X0 m ρ c) (X1 m ρ c) (X2 m ρ c) (X3 m ρ c) (X4 m ρ c) (X5 m ρ c) (X6 m ρ c)
    (W6_v53 m ρ c) (W6_v3 m ρ c) (W6_v6 m ρ c) (W6_v29 m ρ c) (W6_arg6 m ρ c) (W6_arg2 m ρ c)).trans
    (gather_truncf _ _)

theorem W7_v90 (c : Dev nD) : W7 m ρ c (Proc.devRef .tc main_v90)
    = extractStridedSlice S128x64 ![0, 0] (truncf .bf16 (X7 m ρ c) bitsLt_bf16_f32) slices_S256x64_S128x64_0_0 := by
  show StableHlo.after hostOps2 (W6 m ρ c) (Proc.devRef .tc main_v90) = _
  peels hostOps2
  rw [W6_arg7 m ρ c]

theorem W7_v91 (c : Dev nD) : W7 m ρ c (Proc.devRef .tc main_v91)
    = extractStridedSlice S128x64 ![128, 0] (truncf .bf16 (X7 m ρ c) bitsLt_bf16_f32) slices_S256x64_S128x64_128_0 := by
  show StableHlo.after hostOps2 (W6 m ρ c) (Proc.devRef .tc main_v91) = _
  peels hostOps2
  rw [W6_arg7 m ρ c]

theorem W7_v92 (c : Dev nD) : W7 m ρ c (Proc.devRef .tc main_v92) = truncf .bf16 (X9 m ρ c) bitsLt_bf16_f32 := by
  show StableHlo.after hostOps2 (W6 m ρ c) (Proc.devRef .tc main_v92) = _
  peels hostOps2
  rw [W6_arg9 m ρ c]

theorem W7_v93 (c : Dev nD) : W7 m ρ c (Proc.devRef .tc main_v93) = shapeCast S1x64 (X8 m ρ c) shapeCasts_S64_S1x64 := by
  show StableHlo.after hostOps2 (W6 m ρ c) (Proc.devRef .tc main_v93) = _
  peels hostOps2
  rw [W6_arg8 m ρ c]
  rfl

theorem W7_v94 (c : Dev nD) : W7 m ρ c (Proc.devRef .tc main_v94) = shapeCast S1x1 (X10 m ρ c) shapeCasts_S1_S1x1 := by
  show StableHlo.after hostOps2 (W6 m ρ c) (Proc.devRef .tc main_v94) = _
  peels hostOps2
  rw [W6_arg10 m ρ c]
  rfl

end Cert.KernelIdeal.Val

end
-- ==== Proof.KLink.lean ====
/-
  The link scorer kernel's value. Each grid point t of 50 loads rows 4000 t .. 4000 t + 3999 of the two gathered
  arrays and the five small operands whole, and writes the scores of those rows; the 50 row blocks tile the 200000
  rows, so the output array after the run is the scorer's closed form of the operand arrays.
-/
import proofs.«426822_j82772609728846_3_alg».proof.Proof.Gen.KernelIdeal.Frame
import proofs.«426822_j82772609728846_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen

/-! ## The two products read at an index

The hidden layer's product contracts the 128 feature columns of a row block against the 128 rows of a weight; the
second layer's contracts the 64 hidden units against the 64 rows of the output weight. Each operand index of a
product, at output index (p, j) and contraction coordinate k, is (p, k) on the left and (k, j) on the right. -/

theorem lhs_hidden_0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem lhs_hidden_1 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
theorem rhs_hidden_0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
theorem rhs_hidden_1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- A row block times a first-layer weight, into the zero accumulator, at row p and hidden unit j. -/
theorem hidden_product_apply (x : FVec Ideal S4000x128 .bf16) (w : FVec Ideal S128x64 .bf16) (p : Fin 4000) (j : Fin 64) :
    matmul dot_S4000x128_S128x64_S4000x64_1_0_0_1_n_n none x w (constant (F := Ideal) S4000x64 .f32 0x00000000#32) (ix2 p j)
      = ∑ k : Fin 128, x (ix2 p k) * w (ix2 k j) := by
  refine (Ideal.matmul_constant_zero_apply dot_S4000x128_S128x64_S4000x64_1_0_0_1_n_n none x w (ix2 p j)).trans ?_
  rw [← Equiv.sum_comp (ValueIdx.contrEquiv1 dot_S4000x128_S128x64_S4000x64_1_0_0_1_n_n 128 rfl rfl).symm]
  refine Finset.sum_congr rfl fun k _ => ?_
  have hk := ValueIdx.contrEquiv1_symm_val dot_S4000x128_S128x64_S4000x64_1_0_0_1_n_n 128 rfl rfl k
  have el : dot_S4000x128_S128x64_S4000x64_1_0_0_1_n_n.lhsIdx (ix2 p j) ((ValueIdx.contrEquiv1 dot_S4000x128_S128x64_S4000x64_1_0_0_1_n_n 128 rfl rfl).symm k) = ix2 p k := funext fun a => Fin.ext (by
    match a with
    | ⟨0, _⟩ => exact lhs_hidden_0 _ _
    | ⟨1, _⟩ => exact (lhs_hidden_1 _ _).trans hk)
  have er : dot_S4000x128_S128x64_S4000x64_1_0_0_1_n_n.rhsIdx (ix2 p j) ((ValueIdx.contrEquiv1 dot_S4000x128_S128x64_S4000x64_1_0_0_1_n_n 128 rfl rfl).symm k) = ix2 k j := funext fun a => Fin.ext (by
    match a with
    | ⟨0, _⟩ => exact (rhs_hidden_0 _ _).trans hk
    | ⟨1, _⟩ => exact rhs_hidden_1 _ _)
  rw [el, er]

theorem lhs_score_0 (i : S4000x1.Idx) (q : dot_S4000x64_S64x1_S4000x1_1_0_0_1_n_n.contr.Idx) :
    (dot_S4000x64_S64x1_S4000x1_1_0_0_1_n_n.lhsIdx i q 0).val = (i 0).val := by
  unfold DotDims.lhsIdx
  rw [dif_neg (show ¬(0 : Fin S4000x64.rank) ∈ dot_S4000x64_S64x1_S4000x1_1_0_0_1_n_n.lhsBatch by decide), dif_pos (show (0 : Fin S4000x64.rank) ∈ dot_S4000x64_S64x1_S4000x1_1_0_0_1_n_n.lhsNonContracting by decide)]
  rfl
theorem lhs_score_1 (i : S4000x1.Idx) (q : dot_S4000x64_S64x1_S4000x1_1_0_0_1_n_n.contr.Idx) :
    (dot_S4000x64_S64x1_S4000x1_1_0_0_1_n_n.lhsIdx i q 1).val = (q ⟨0, by decide⟩).val :=
  dot_S4000x64_S64x1_S4000x1_1_0_0_1_n_n.lhsIdx_val_of_single rfl i q
theorem rhs_score_0 (i : S4000x1.Idx) (q : dot_S4000x64_S64x1_S4000x1_1_0_0_1_n_n.contr.Idx) :
    (dot_S4000x64_S64x1_S4000x1_1_0_0_1_n_n.rhsIdx i q 0).val = (q ⟨0, by decide⟩).val :=
  dot_S4000x64_S64x1_S4000x1_1_0_0_1_n_n.rhsIdx_val_of_single rfl i q
theorem rhs_score_1 (i : S4000x1.Idx) (q : dot_S4000x64_S64x1_S4000x1_1_0_0_1_n_n.contr.Idx) :
    (dot_S4000x64_S64x1_S4000x1_1_0_0_1_n_n.rhsIdx i q 1).val = (i 1).val := by
  unfold DotDims.rhsIdx
  rw [dif_neg (show ¬(1 : Fin S64x1.rank) ∈ dot_S4000x64_S64x1_S4000x1_1_0_0_1_n_n.rhsBatch by decide), dif_pos (show (1 : Fin S64x1.rank) ∈ dot_S4000x64_S64x1_S4000x1_1_0_0_1_n_n.rhsNonContracting by decide)]
  rfl

/-- The rectified hidden block times the second-layer weight, into the zero accumulator, at row p. -/
theorem score_product_apply (x : FVec Ideal S4000x64 .bf16) (w : FVec Ideal S64x1 .bf16) (p : Fin 4000) (q : Fin 1) :
    matmul dot_S4000x64_S64x1_S4000x1_1_0_0_1_n_n none x w (constant (F := Ideal) S4000x1 .f32 0x00000000#32) (ix2 p q)
      = ∑ j : Fin 64, x (ix2 p j) * w (ix2 j q) := by
  refine (Ideal.matmul_constant_zero_apply dot_S4000x64_S64x1_S4000x1_1_0_0_1_n_n none x w (ix2 p q)).trans ?_
  rw [← Equiv.sum_comp (ValueIdx.contrEquiv1 dot_S4000x64_S64x1_S4000x1_1_0_0_1_n_n 64 rfl rfl).symm]
  refine Finset.sum_congr rfl fun k _ => ?_
  have hk := ValueIdx.contrEquiv1_symm_val dot_S4000x64_S64x1_S4000x1_1_0_0_1_n_n 64 rfl rfl k
  have el : dot_S4000x64_S64x1_S4000x1_1_0_0_1_n_n.lhsIdx (ix2 p q) ((ValueIdx.contrEquiv1 dot_S4000x64_S64x1_S4000x1_1_0_0_1_n_n 64 rfl rfl).symm k) = ix2 p k := funext fun a => Fin.ext (by
    match a with
    | ⟨0, _⟩ => exact lhs_score_0 _ _
    | ⟨1, _⟩ => exact (lhs_score_1 _ _).trans hk)
  have er : dot_S4000x64_S64x1_S4000x1_1_0_0_1_n_n.rhsIdx (ix2 p q) ((ValueIdx.contrEquiv1 dot_S4000x64_S64x1_S4000x1_1_0_0_1_n_n 64 rfl rfl).symm k) = ix2 k q := funext fun a => Fin.ext (by
    match a with
    | ⟨0, _⟩ => exact (rhs_score_0 _ _).trans hk
    | ⟨1, _⟩ => exact rhs_score_1 _ _)
  rw [el, er]

/-! ## The body's stored value at an index -/

/-- The logistic function of a block, read at an index, is the extended reals' of the element. -/
theorem logistic_apply {s : Shape} {φ : FTy} (a : FVec Ideal s φ) (i : s.Idx) : logistic a i = Ideal.logistic (a i) := rfl

/-- What the body stores at row p of its block: the logistic function of the second layer over the rectified hidden
    layer, from the seven loaded blocks. -/
theorem stored_apply (x0 x1 : Vec Ideal S4000x128 .bf16) (x2 x3 : Vec Ideal S128x64 .bf16) (x4 : Vec Ideal S1x64 .f32)
    (x5 : Vec Ideal S64x1 .bf16) (x6 : Vec Ideal S1x1 .f32) (p : Fin 4000) (q : Fin 1) :
    k2_pay1 (F := Ideal) x0 x1 x2 x3 x4 x5 x6 (ix2 p q)
      = Ideal.logistic ((∑ j : Fin 64,
            max (((∑ k : Fin 128, x0 (ix2 p k) * x2 (ix2 k j)) + (∑ k : Fin 128, x1 (ix2 p k) * x3 (ix2 k j))) + x4 (ix2 (0 : Fin 1) j))
              (Ideal.ofBits .f32 0x00000000#32) * x5 (ix2 j q))
          + x6 (ix2 (0 : Fin 1) q)) := by
  unfold k2_pay1
  simp only [shapeCast_self]
  rw [logistic_apply, addf_apply, score_product_apply, broadcastTo_1b_ab_apply]
  refine congrArg Ideal.logistic (congrArg (· + x6 (ix2 (0 : Fin 1) q)) (Finset.sum_congr rfl fun j _ => ?_))
  rw [truncf_apply, maximumf_apply, addf_apply, addf_apply, hidden_product_apply, hidden_product_apply,
    broadcastTo_1b_ab_apply, broadcast_apply]
  rfl

/-! ## From the blocks to the array -/

/- The TensorCore's buffer contents when the region is entered: any. -/
variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the 50 grid points: the two gathered arrays and the output are blocked by
    rows at block index t, the five small operands sit whole at block (0, 0). -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Row p of the source block at point t is row 4000 t + p of the gathered source rows. -/
theorem src_block_apply (c : Dev nD) (t : Fin cfg2.N) (p : Fin 4000) (k : Fin 128) (r : Fin 200000)
    (hr : r.val = 4000 * t.val + p.val) :
    (iblk2 V c 0 t : Vec Ideal S4000x128 .bf16) (ix2 p k) = (V c main_v81 : S200000x128.Idx → EReal) (ix2 r k) := by
  obtain ⟨e0, e1, -⟩ := index_facts t
  show V c main_v81 (((cfg2.win 0).blk t).view.emb (ix2 p k)) = V c main_v81 (ix2 r k)
  refine congrArg _ (funext fun a => Fin.ext ?_)
  match a with
  | ⟨0, _⟩ => show win2_0.index t (0 : Fin 2) * 4000 + 1 * p.val = r.val; omega
  | ⟨1, _⟩ => show win2_0.index t (1 : Fin 2) * 128 + 1 * k.val = k.val; omega

/-- Row p of the target block at point t is row 4000 t + p of the gathered target rows. -/
theorem dst_block_apply (c : Dev nD) (t : Fin cfg2.N) (p : Fin 4000) (k : Fin 128) (r : Fin 200000)
    (hr : r.val = 4000 * t.val + p.val) :
    (iblk2 V c 1 t : Vec Ideal S4000x128 .bf16) (ix2 p k) = (V c main_v88 : S200000x128.Idx → EReal) (ix2 r k) := by
  obtain ⟨-, -, e0, e1, -⟩ := index_facts t
  show V c main_v88 (((cfg2.win 1).blk t).view.emb (ix2 p k)) = V c main_v88 (ix2 r k)
  refine congrArg _ (funext fun a => Fin.ext ?_)
  match a with
  | ⟨0, _⟩ => show win2_1.index t (0 : Fin 2) * 4000 + 1 * p.val = r.val; omega
  | ⟨1, _⟩ => show win2_1.index t (1 : Fin 2) * 128 + 1 * k.val = k.val; omega

/-- The source half of the first weight is loaded whole at every point. -/
theorem wps_block (c : Dev nD) (t : Fin cfg2.N) :
    (iblk2 V c 2 t : Vec Ideal S128x64 .bf16) = (V c main_v90 : S128x64.Idx → EReal) := by
  obtain ⟨-, -, -, -, e0, e1, -⟩ := index_facts t
  funext x
  show V c main_v90 (((cfg2.win 2).blk t).view.emb x) = V c main_v90 x
  refine congrArg _ (funext fun a => Fin.ext ?_)
  match a with
  | ⟨0, _⟩ => show win2_2.index t (0 : Fin 2) * 128 + 1 * (x 0).val = (x 0).val; omega
  | ⟨1, _⟩ => show win2_2.index t (1 : Fin 2) * 64 + 1 * (x 1).val = (x 1).val; omega

/-- The target half of the first weight is loaded whole at every point. -/
theorem wpd_block (c : Dev nD) (t : Fin cfg2.N) :
    (iblk2 V c 3 t : Vec Ideal S128x64 .bf16) = (V c main_v91 : S128x64.Idx → EReal) := by
  obtain ⟨-, -, -, -, -, -, e0, e1, -⟩ := index_facts t
  funext x
  show V c main_v91 (((cfg2.win 3).blk t).view.emb x) = V c main_v91 x
  refine congrArg _ (funext fun a => Fin.ext ?_)
  match a with
  | ⟨0, _⟩ => show win2_3.index t (0 : Fin 2) * 128 + 1 * (x 0).val = (x 0).val; omega
  | ⟨1, _⟩ => show win2_3.index t (1 : Fin 2) * 64 + 1 * (x 1).val = (x 1).val; omega

/-- The hidden layer's bias is loaded whole at every point. -/
theorem b1_block (c : Dev nD) (t : Fin cfg2.N) :
    (iblk2 V c 4 t : Vec Ideal S1x64 .f32) = (V c main_v93 : S1x64.Idx → EReal) := by
  obtain ⟨-, -, -, -, -, -, -, -, e0, e1, -⟩ := index_facts t
  funext x
  show V c main_v93 (((cfg2.win 4).blk t).view.emb x) = V c main_v93 x
  refine congrArg _ (funext fun a => Fin.ext ?_)
  match a with
  | ⟨0, _⟩ => show win2_4.index t (0 : Fin 2) * 1 + 1 * (x 0).val = (x 0).val; omega
  | ⟨1, _⟩ => show win2_4.index t (1 : Fin 2) * 64 + 1 * (x 1).val = (x 1).val; omega

/-- The second layer's weight is loaded whole at every point. -/
theorem wp2_block (c : Dev nD) (t : Fin cfg2.N) :
    (iblk2 V c 5 t : Vec Ideal S64x1 .bf16) = (V c main_v92 : S64x1.Idx → EReal) := by
  obtain ⟨-, -, -, -, -, -, -, -, -, -, e0, e1, -⟩ := index_facts t
  funext x
  show V c main_v92 (((cfg2.win 5).blk t).view.emb x) = V c main_v92 x
  refine congrArg _ (funext fun a => Fin.ext ?_)
  match a with
  | ⟨0, _⟩ => show win2_5.index t (0 : Fin 2) * 64 + 1 * (x 0).val = (x 0).val; omega
  | ⟨1, _⟩ => show win2_5.index t (1 : Fin 2) * 1 + 1 * (x 1).val = (x 1).val; omega

/-- The second layer's bias is loaded whole at every point. -/
theorem b2_block (c : Dev nD) (t : Fin cfg2.N) :
    (iblk2 V c 6 t : Vec Ideal S1x1 .f32) = (V c main_v94 : S1x1.Idx → EReal) := by
  obtain ⟨-, -, -, -, -, -, -, -, -, -, -, -, e0, e1, -⟩ := index_facts t
  funext x
  show V c main_v94 (((cfg2.win 6).blk t).view.emb x) = V c main_v94 x
  refine congrArg _ (funext fun a => Fin.ext ?_)
  match a with
  | ⟨0, _⟩ => show win2_6.index t (0 : Fin 2) * 1 + 1 * (x 0).val = (x 0).val; omega
  | ⟨1, _⟩ => show win2_6.index t (1 : Fin 2) * 1 + 1 * (x 1).val = (x 1).val; omega

/-- Row p of what the body stores is the scorer's closed form at row r of the arrays, when the two row blocks hold
    rows of the gathered arrays with row p of each block being row r, and the five small blocks are the arrays. -/
theorem stored_eq_link (hs hd : S200000x128.Idx → EReal) (wps wpd : S128x64.Idx → EReal) (b1 : S1x64.Idx → EReal)
    (wp2 : S64x1.Idx → EReal) (b2 : S1x1.Idx → EReal)
    (x0 x1 : Vec Ideal S4000x128 .bf16) (x2 x3 : Vec Ideal S128x64 .bf16) (x4 : Vec Ideal S1x64 .f32)
    (x5 : Vec Ideal S64x1 .bf16) (x6 : Vec Ideal S1x1 .f32) (p : Fin 4000) (q : Fin 1) (r : Fin 200000)
    (h0 : ∀ k : Fin 128, x0 (ix2 p k) = hs (ix2 r k)) (h1 : ∀ k : Fin 128, x1 (ix2 p k) = hd (ix2 r k))
    (h2 : x2 = wps) (h3 : x3 = wpd) (h4 : x4 = b1) (h5 : x5 = wp2) (h6 : x6 = b2) :
    k2_pay1 (F := Ideal) x0 x1 x2 x3 x4 x5 x6 (ix2 p q) = Cert.Spec.link hs hd wps wpd b1 wp2 b2 (ix2 r q) := by
  subst h2 h3 h4 h5 h6
  obtain rfl : q = 0 := Subsingleton.elim _ _
  rw [stored_apply]
  unfold Cert.Spec.link Cert.Spec.hidden
  simp only [h0, h1]

/-- What point t writes back is block t of the scorer's closed form of the operand arrays as the region finds them. -/
theorem flushed_eq (c : Dev nD) (t : Fin cfg2.N) :
    (dat2 (F := Ideal) V c).flushed 7 t = ((cfg2.win 7).blk t).view.read (Elt Ideal)
      (Cert.Spec.link (V c main_v81) (V c main_v88) (V c main_v90) (V c main_v91) (V c main_v93) (V c main_v92) (V c main_v94)) := by
  show (cfg2.win 7).cut (grid2.coords t) ((dat2 V c).after 7 t) = _
  rw [after2_7]
  unfold out2_7
  rw [View.canon_unit_zero zero_offsets]
  simp only [View.ld_unit_zero (S := S4000x128) zero_offsets, View.ld_unit_zero (S := S128x64) zero_offsets,
    View.ld_unit_zero (S := S1x64) zero_offsets, View.ld_unit_zero (S := S64x1) zero_offsets, View.ld_unit_zero (S := S1x1) zero_offsets]
  funext y
  have hy0 : (y 0).val < 4000 := (y 0).isLt
  have hy1 : (y 1).val < 1 := (y 1).isLt
  have ht : t.val < 50 := lt_of_lt_of_eq t.isLt N_2
  obtain ⟨-, -, -, -, -, -, -, -, -, -, -, -, -, -, e0, e1⟩ := index_facts t
  have hx : (win2 7).xinj (grid2.coords t) y = ix2 (⟨(y 0).val, hy0⟩ : Fin 4000) (⟨(y 1).val, hy1⟩ : Fin 1) :=
    funext fun a => by
      match a with
      | ⟨0, _⟩ => rfl
      | ⟨1, _⟩ => rfl
  have he : ((cfg2.win 7).blk t).view.emb y
      = ix2 (⟨4000 * t.val + (y 0).val, by omega⟩ : Fin 200000) (⟨(y 1).val, hy1⟩ : Fin 1) :=
    funext fun a => Fin.ext (by
      match a with
      | ⟨0, _⟩ => show win2_7.index t (0 : Fin 2) * 4000 + 1 * (y 0).val = 4000 * t.val + (y 0).val; omega
      | ⟨1, _⟩ => show win2_7.index t (1 : Fin 2) * 1 + 1 * (y 1).val = (y 1).val; omega)
  refine (congrArg (k2_pay1 (F := Ideal) (iblk2 V c 0 t) (iblk2 V c 1 t) (iblk2 V c 2 t) (iblk2 V c 3 t) (iblk2 V c 4 t) (iblk2 V c 5 t) (iblk2 V c 6 t)) hx).trans ?_
  refine Eq.trans ?_ (congrArg (Cert.Spec.link (V c main_v81) (V c main_v88) (V c main_v90) (V c main_v91) (V c main_v93) (V c main_v92) (V c main_v94)) he).symm
  exact stored_eq_link (V c main_v81) (V c main_v88) (V c main_v90) (V c main_v91) (V c main_v93) (V c main_v92) (V c main_v94)
    (iblk2 V c 0 t) (iblk2 V c 1 t) (iblk2 V c 2 t) (iblk2 V c 3 t) (iblk2 V c 4 t) (iblk2 V c 5 t) (iblk2 V c 6 t)
    ⟨(y 0).val, hy0⟩ ⟨(y 1).val, hy1⟩ ⟨4000 * t.val + (y 0).val, by omega⟩
    (fun k => src_block_apply V c t ⟨(y 0).val, hy0⟩ k ⟨4000 * t.val + (y 0).val, by omega⟩ rfl)
    (fun k => dst_block_apply V c t ⟨(y 0).val, hy0⟩ k ⟨4000 * t.val + (y 0).val, by omega⟩ rfl)
    (wps_block V c t) (wpd_block V c t) (b1_block V c t) (wp2_block V c t) (b2_block V c t)

/-- An index of the output array is in point t's block iff each coordinate is in the block's range on its axis. -/
theorem mem_out_block (t : Fin cfg2.N) (i : S200000x1.Idx) :
    i ∈ ((cfg2.win 7).blk t).view.set ↔ ∀ a : Fin 2, win2_7.index t a * S4000x1.size a ≤ (i a).val ∧ (i a).val < win2_7.index t a * S4000x1.size a + S4000x1.size a := by
  show i ∈ ((View.whole main_v95).slice (win2_7.rect t)).set ↔ _
  rw [View.set_slice_whole, Rect.mem_set_unit]
  exact Iff.rfl

/-- The 50 row blocks tile the 200000 rows: row r is in the block of point r / 4000, which writes back. -/
theorem covered (i : S200000x1.Idx) :
    ∃ t : Fin cfg2.N, (cfg2.win 7).flush t = true ∧ i ∈ ((cfg2.win 7).blk t).view.set := by
  have hi0 : (i 0).val < 200000 := (i 0).isLt
  have hi1 : (i 1).val < 1 := (i 1).isLt
  obtain ⟨t, ht⟩ : ∃ t : Fin cfg2.N, t.val = (i 0).val / 4000 :=
    ⟨⟨(i 0).val / 4000, lt_of_lt_of_eq (by omega : (i 0).val / 4000 < 50) N_2.symm⟩, rfl⟩
  obtain ⟨-, -, -, -, -, -, -, -, -, -, -, -, -, -, e0, e1⟩ := index_facts t
  refine ⟨t, flush2_7 t, ?_⟩
  rw [mem_out_block]
  intro a
  match a with
  | ⟨0, _⟩ => show win2_7.index t (0 : Fin 2) * 4000 ≤ (i 0).val ∧ (i 0).val < win2_7.index t (0 : Fin 2) * 4000 + 4000; omega
  | ⟨1, _⟩ => show win2_7.index t (1 : Fin 2) * 1 ≤ (i 1).val ∧ (i 1).val < win2_7.index t (1 : Fin 2) * 1 + 1; omega

/-- The link scorer's output array after its 50 grid points, as the closed form of its seven operand arrays. -/
theorem link_value (c : Dev nD) :
    (dat2 (F := Ideal) V c).arrAt 7 cfg2.N
      = Cert.Spec.link (V c main_v81) (V c main_v88) (V c main_v90) (V c main_v91) (V c main_v93) (V c main_v92) (V c main_v94) :=
  (dat2 (F := Ideal) V c).arrAt_eq_of_cover 7
    (Cert.Spec.link (V c main_v81) (V c main_v88) (V c main_v90) (V c main_v91) (V c main_v93) (V c main_v92) (V c main_v94))
    (fun t _ => flushed_eq V c t) (fun i => covered i)

end Cert.KernelIdeal.Val

end
-- ==== Proof.KHostD.lean ====
/-
  The result: the link scorer's closed form of what the last stretch leaves is the reference's last stage.
-/
import proofs.«426822_j82772609728846_3_alg».proof.Proof.KHostC
import proofs.«426822_j82772609728846_3_alg».proof.Proof.KLink
import Idealize.ShloMosaic.Lib.StableHlo.Run
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx Idealize.ShloMosaic.StableHlo
open Cert.KernelIdeal Cert.KernelIdeal.Gen Cert.ReferenceIdeal.ReadP Cert.ReferenceIdeal.RefVal

variable (m : (ℓ : Loc nD τ sig) → Buf (Elt Ideal) ℓ) (ρ : Dev nD → PrngReg)

/-! ## The scorer's small operands at an index -/

theorem upper_half (x7 : FVec Ideal S256x64 .f32) (k : Fin 128) (j : Fin 64) :
    extractStridedSlice S128x64 ![0, 0] (truncf .bf16 x7 bitsLt_bf16_f32) slices_S256x64_S128x64_0_0 (ix2 k j)
      = x7 (ix2 ⟨k.val, by omega⟩ j) := by
  refine (extractStridedSlice_apply ![0, 0] (truncf .bf16 x7 bitsLt_bf16_f32) slices_S256x64_S128x64_0_0 (ix2 k j)
    (ix2 ⟨k.val, by omega⟩ j) (fun a => match a with
      | ⟨0, _⟩ => by show k.val = 0 + k.val; omega
      | ⟨1, _⟩ => by show j.val = 0 + j.val; omega)).trans ?_
  rfl

theorem lower_half (x7 : FVec Ideal S256x64 .f32) (k : Fin 128) (j : Fin 64) :
    extractStridedSlice S128x64 ![128, 0] (truncf .bf16 x7 bitsLt_bf16_f32) slices_S256x64_S128x64_128_0 (ix2 k j)
      = x7 (ix2 ⟨128 + k.val, by omega⟩ j) := by
  refine (extractStridedSlice_apply ![128, 0] (truncf .bf16 x7 bitsLt_bf16_f32) slices_S256x64_S128x64_128_0 (ix2 k j)
    (ix2 ⟨128 + k.val, by omega⟩ j) (fun a => match a with
      | ⟨0, _⟩ => by show 128 + k.val = 128 + k.val; omega
      | ⟨1, _⟩ => by show j.val = 0 + j.val; omega)).trans ?_
  rfl

theorem bias1_row (x8 : FVec Ideal S64 .f32) (j : Fin 64) :
    shapeCast S1x64 x8 shapeCasts_S64_S1x64 (ix2 0 j) = x8 (ix1 j) := by
  refine shapeCast_apply x8 shapeCasts_S64_S1x64 (ix2 0 j) (ix1 j) ?_
  rewrite [Shape.rowMajor_val_two, Shape.rowMajor_val_one]
  show j.val = 0 * 64 + j.val
  omega

theorem bias2_row (x10 : FVec Ideal S1 .f32) :
    shapeCast S1x1 x10 shapeCasts_S1_S1x1 (ix2 0 0) = x10 (ix1 0) := by
  refine shapeCast_apply x10 shapeCasts_S1_S1x1 (ix2 0 0) (ix1 0) ?_
  rewrite [Shape.rowMajor_val_two, Shape.rowMajor_val_one]
  rfl

/-! ## The result -/

theorem link_truncf (hs hd : (⟨2, ![200000, 128]⟩ : Shape).Idx → EReal) (wps wpd : (⟨2, ![128, 64]⟩ : Shape).Idx → EReal)
    (b1 : (⟨2, ![1, 64]⟩ : Shape).Idx → EReal) (w2 : FVec Ideal S64x1 .f32) (b2 : (⟨2, ![1, 1]⟩ : Shape).Idx → EReal) :
    Cert.Spec.link hs hd wps wpd b1 (truncf .bf16 w2 bitsLt_bf16_f32) b2 = Cert.Spec.link hs hd wps wpd b1 w2 b2 := rfl

/-- The kernel's result array after the run is the reference's last stage of the arguments as launched. -/
theorem result_value (c : Dev nD) : W8 m ρ c (Proc.devRef .tc main_v95)
    = val_main_v128 (F := Ideal) (X0 m ρ c) (X1 m ρ c) (X2 m ρ c) (X3 m ρ c) (X4 m ρ c) (X5 m ρ c) (X6 m ρ c)
        (X7 m ρ c) (X8 m ρ c) (X9 m ρ c) (X10 m ρ c) := by
  have h := W8_arr m ρ c 7
  rw [link_value (V7 m ρ) c] at h
  refine h.trans ?_
  have e81 : V7 m ρ c main_v81 = _ := W7_v81 m ρ c
  have e88 : V7 m ρ c main_v88 = _ := W7_v88 m ρ c
  have e90 : V7 m ρ c main_v90 = _ := W7_v90 m ρ c
  have e91 : V7 m ρ c main_v91 = _ := W7_v91 m ρ c
  have e92 : V7 m ρ c main_v92 = _ := W7_v92 m ρ c
  have e93 : V7 m ρ c main_v93 = _ := W7_v93 m ρ c
  have e94 : V7 m ρ c main_v94 = _ := W7_v94 m ρ c
  rw [e81, e88, e90, e91, e92, e93, e94, link_truncf]
  have hl := ref_link (X0 m ρ c) (X1 m ρ c) (X2 m ρ c) (X3 m ρ c) (X4 m ρ c) (X5 m ρ c) (X6 m ρ c) (X7 m ρ c) (X8 m ρ c)
    (X9 m ρ c) (X10 m ρ c)
    (extractStridedSlice S128x64 ![0, 0] (truncf .bf16 (X7 m ρ c) bitsLt_bf16_f32) slices_S256x64_S128x64_0_0)
    (extractStridedSlice S128x64 ![128, 0] (truncf .bf16 (X7 m ρ c) bitsLt_bf16_f32) slices_S256x64_S128x64_128_0)
    (shapeCast S1x64 (X8 m ρ c) shapeCasts_S64_S1x64) (shapeCast S1x1 (X10 m ρ c) shapeCasts_S1_S1x1)
    (upper_half (X7 m ρ c)) (lower_half (X7 m ρ c)) (bias1_row (X8 m ρ c))
    (bias2_row (X10 m ρ c))
  exact hl.symm

end Cert.KernelIdeal.Val

end
-- ==== Proof.lean ====
/-
  The certificate of the link predictor kernel (two graph-convolution layers and a two-layer scorer of gathered node
  pairs) against its reference, over the extended reals.

  The kernel's program computes each layer's dense product by a pallas_call of 25 row blocks and the scorer by a
  pallas_call of 50 row blocks; every other operation (the self-looped edge lists, the degree normalisation, the
  gathers, the scatter-adds, the biases, the rectifier) is the reference's own host operation on the same values.
  So the two programs agree as soon as (a) a projection's row blocks tile the whole product, which is the reference's
  `dot_general` read as a sum; (b) the scorer's hidden layer, the kernel's two products of the source rows with the
  upper half of the first weight and of the target rows with its lower half, is the reference's one product of the
  concatenated rows with the whole weight: a sum over 256 columns split in two, which commutativity and
  associativity of addition give on the extended reals with no finiteness; (c) the kernel's logistic is the
  reference's `1 / (1 + exp (-x))`, the same function by definition; and format changes are the identity. The
  precondition is never opened. The ideal pass rewrote nothing, so `preserves` is trivial.

  The three frames: the two kernel programs' are generated whole; the reference's is its run with the result dropped.
-/
import proofs.«426822_j82772609728846_3_alg».proof.Defs
import proofs.«426822_j82772609728846_3_alg».proof.Proof.Gen.Kernel
import proofs.«426822_j82772609728846_3_alg».proof.Proof.Gen.Kernel.Skeleton
import proofs.«426822_j82772609728846_3_alg».proof.Proof.Gen.Kernel.Launch
import proofs.«426822_j82772609728846_3_alg».proof.Proof.Gen.Kernel.Points
import proofs.«426822_j82772609728846_3_alg».proof.Proof.Gen.Kernel.Frame
import proofs.«426822_j82772609728846_3_alg».proof.Proof.Gen.KernelIdeal
import proofs.«426822_j82772609728846_3_alg».proof.Proof.Gen.KernelIdeal.Skeleton
import proofs.«426822_j82772609728846_3_alg».proof.Proof.Gen.KernelIdeal.Launch
import proofs.«426822_j82772609728846_3_alg».proof.Proof.Gen.KernelIdeal.Points
import proofs.«426822_j82772609728846_3_alg».proof.Proof.Gen.KernelIdeal.Frame
import proofs.«426822_j82772609728846_3_alg».proof.Proof.Gen.ReferenceIdeal
import proofs.«426822_j82772609728846_3_alg».proof.Proof.Gen.Pre_finite_inputs
import proofs.«426822_j82772609728846_3_alg».proof.Proof.RunP
import proofs.«426822_j82772609728846_3_alg».proof.Proof.ReadP
import proofs.«426822_j82772609728846_3_alg».proof.Proof.KRun
import proofs.«426822_j82772609728846_3_alg».proof.Proof.KHostD
import Idealize.ShloMosaic.Adequacy
import Idealize.ShloMosaic.Init

noncomputable section

namespace Cert.Proof

open Idealize.ShloMosaic Idealize.ShloMosaic.TcCoe Idealize.SL.Sem

theorem frame_k : Cert.frame_Kernel :=
  fun m ρ _ => Cert.Kernel.Gen.frame m ρ

theorem frame_ki : Cert.frame_KernelIdeal :=
  fun m ρ _ => Cert.KernelIdeal.Gen.frame m ρ

theorem frame_ri : Cert.frame_ReferenceIdeal :=
  fun m ρ _ => (θ_run Cert.ReferenceIdeal.defs _ _).mono (fun _ h c => (h c).2)
    (Cert.ReferenceIdeal.ValueP.run (F := Ideal) m ρ)

/-- Both programs run; the kernel's result array ends at the reference's last stage of the arguments, which is what
    the reference's result array ends at, the arguments agreeing. -/
theorem algebraic : Cert.algebraic_KernelIdeal_ReferenceIdeal := by
  intro m ρ m' ρ' _ hagree
  refine ⟨fun c => Cert.KernelIdeal.Gen.W8 m ρ c (Proc.devRef .tc Cert.KernelIdeal.main_v95),
    Cert.KernelIdeal.Gen.run_result (F := Ideal) m ρ, ?_⟩
  refine (θ_run Cert.ReferenceIdeal.defs _ _).mono (fun r h c => ⟨(h c).1.trans ?_, (h c).2⟩)
    (Cert.ReferenceIdeal.ValueP.run (F := Ideal) m' ρ')
  obtain ⟨h0, h1, h2, h3, h4, h5, h6, h7, h8, h9, h10⟩ := hagree c
  rw [Cert.ReferenceIdeal.ReadP.val_main_v128_eq, h0, h1, h2, h3, h4, h5, h6, h7, h8, h9, h10]
  exact (Cert.KernelIdeal.Val.result_value m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
